-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S64x1 : Shape := ⟨2, ![64, 1]⟩
abbrev S64 : Shape := ⟨1, ![64]⟩
abbrev S64x64 : Shape := ⟨2, ![64, 64]⟩
abbrev S_ : Shape := ⟨0, ![]⟩

class Facts : Prop where
  bcast_S_S64x1 : S_.BroadcastsInDim S64x1 (![] : Fin 0 → Fin S64x1.rank)
  reducesTo_S64x1_S_d0_1 : S64x1.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S256x512 32) (main_arg1 : IVec S256x512 32) (main_arg2 : FVec F S64x1 .f32) (main_arg3 : FVec F S64 .f32) (main_arg4 : FVec F S64x64 .f32) (main_arg5 : FVec F S64 .f32) : IVec S_ 1 :=
  let main_v0 : FVec F S64x1 .f32 := Host.absf main_arg2
  let main_cst : FVec F S_ .f32 := constant S_ .f32 0x7F800000#32
  let main_v1 : FVec F S64x1 .f32 := broadcastInDim S64x1 ![] bcast_S_S64x1 main_cst
  let main_v2 : IVec S64x1 1 := cmpf .olt main_v0 main_v1
  let main_c : IVec S_ 1 := constantI S_ 1 1#1
  let main_v3 : IVec S_ 1 := (fun x v => Host.reduce IntOp.andi x v reducesTo_S64x1_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S256x512 : Shape := ⟨2, ![256, 512]⟩
abbrev S64x1 : Shape := ⟨2, ![64, 1]⟩
abbrev S64 : Shape := ⟨1, ![64]⟩
abbrev S64x64 : Shape := ⟨2, ![64, 64]⟩
abbrev S1x64 : Shape := ⟨2, ![1, 64]⟩
abbrev S256x512x64 : Shape := ⟨3, ![256, 512, 64]⟩
abbrev S8x512 : Shape := ⟨2, ![8, 512]⟩
abbrev S8x512x64 : Shape := ⟨3, ![8, 512, 64]⟩
abbrev S8x512x1 : Shape := ⟨3, ![8, 512, 1]⟩
abbrev S8x1x512 : Shape := ⟨3, ![8, 1, 512]⟩
abbrev S8x512x512 : Shape := ⟨3, ![8, 512, 512]⟩
abbrev S1x1x64 : Shape := ⟨3, ![1, 1, 64]⟩
abbrev S4096x64 : Shape := ⟨2, ![4096, 64]⟩

abbrev nBuf : Space → Nat
  | .hbm => 10
  | .vmem => 12
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S64x1, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S256x512x64, .f32⟩
  | .hbm, ⟨9, _⟩ => ⟨S256x512x64, .f32⟩
  | .local _ .vmem, ⟨0, _⟩ => ⟨S8x512, .i32⟩
  | .local _ .vmem, ⟨1, _⟩ => ⟨S8x512, .i32⟩
  | .local _ .vmem, ⟨2, _⟩ => ⟨S8x512, .i32⟩
  | .local _ .vmem, ⟨3, _⟩ => ⟨S8x512, .i32⟩
  | .local _ .vmem, ⟨4, _⟩ => ⟨S64x1, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S8x512x64, .f32⟩
  | .local _ .vmem, ⟨9, _⟩ => ⟨S8x512x64, .f32⟩
  | .local _ .vmem, ⟨10, _⟩ => ⟨S8x512x64, .f32⟩
  | .local _ .vmem, ⟨11, _⟩ => ⟨S8x512x64, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  inb_S8x512_S8x512_0_0 : ∀ a, (![0, 0] : Fin 2 → Nat) a + S8x512.size a ≤ S8x512.size a
  h_S8x512 : 0 < S8x512.numel
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  natLt_1_32 : 1 < 32
  reduces_S8x512x512_S8x512 : S8x512x512.Reduces [2] S8x512
  inb_S64x1_S64x1_0_0 : ∀ a, (![0, 0] : Fin 2 → Nat) a + S64x1.size a ≤ S64x1.size a
  h_S64x1 : 0 < S64x1.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  shapeCasts_S64x1_S64 : S64x1.ShapeCasts S64
  shapeCasts_S64_S1x1x64 : S64.ShapeCasts S1x1x64
  broadcasts_S8x512x1_S8x512x64 : S8x512x1.Broadcasts S8x512x64
  broadcasts_S1x1x64_S8x512x64 : S1x1x64.Broadcasts S8x512x64
  shapeCasts_S1x64_S64 : S1x64.ShapeCasts S64
  shapeCasts_S8x512x64_S4096x64 : S8x512x64.ShapeCasts S4096x64
  transposes_S64x64_p1_0_S64x64 : S64x64.Transposes [1, 0] S64x64
  broadcasts_S1x64_S4096x64 : S1x64.Broadcasts S4096x64
  shapeCasts_S4096x64_S8x512x64 : S4096x64.ShapeCasts S8x512x64
  inb_S8x512x64_S8x512x64_0_0_0 : ∀ a, (![0, 0, 0] : Fin 3 → Nat) a + S8x512x64.size a ≤ S8x512x64.size a
  h_S8x512x64 : 0 < S8x512x64.numel
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S256x512.size a
  hwx0_0 : ∀ i : grid0.Coords, EltTy.bits .i32 = 32 ∨ (Rect.block (s := S256x512) S8x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S256x512.size a
  hwx0_1 : ∀ i : grid0.Coords, EltTy.bits .i32 = 32 ∨ (Rect.block (s := S256x512) S8x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512x64.size a ≤ S256x512x64.size a
  hwx0_6 : ∀ i : grid0.Coords, EltTy.bits .f32 = 32 ∨ (Rect.block (s := S256x512x64) S8x512x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x512x64.size a ≤ S256x512x64.size a
  hwx0_7 : ∀ i : grid0.Coords, EltTy.bits .f32 = 32 ∨ (Rect.block (s := S256x512x64) S8x512x64.size (cc0_transform_7 i) (hinb0_7 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S8x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S8x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x512 : Shape := ⟨2, ![256, 512]⟩
abbrev S64x1 : Shape := ⟨2, ![64, 1]⟩
abbrev S64 : Shape := ⟨1, ![64]⟩
abbrev S64x64 : Shape := ⟨2, ![64, 64]⟩
abbrev S256x512x1 : Shape := ⟨3, ![256, 512, 1]⟩
abbrev S256x1x512 : Shape := ⟨3, ![256, 1, 512]⟩
abbrev S256x512x512 : Shape := ⟨3, ![256, 512, 512]⟩
abbrev S_ : Shape := ⟨0, ![]⟩
abbrev S256x512x2 : Shape := ⟨3, ![256, 512, 2]⟩
abbrev S256x512x2x1 : Shape := ⟨4, ![256, 512, 2, 1]⟩
abbrev S1x1x1x64 : Shape := ⟨4, ![1, 1, 1, 64]⟩
abbrev S256x512x2x64 : Shape := ⟨4, ![256, 512, 2, 64]⟩
abbrev S256x512x64 : Shape := ⟨3, ![256, 512, 64]⟩

abbrev nBuf : Space → Nat
  | .hbm => 100
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S64x1, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S256x512x1, .i32⟩
  | .hbm, ⟨7, _⟩ => ⟨S256x1x512, .i32⟩
  | .hbm, ⟨8, _⟩ => ⟨S256x512x512, .i32⟩
  | .hbm, ⟨9, _⟩ => ⟨S256x512x512, .i32⟩
  | .hbm, ⟨10, _⟩ => ⟨S256x512x512, .i1⟩
  | .hbm, ⟨11, _⟩ => ⟨S256x512x512, .i32⟩
  | .hbm, ⟨12, _⟩ => ⟨S_, .i32⟩
  | .hbm, ⟨13, _⟩ => ⟨S256x512, .i32⟩
  | .hbm, ⟨14, _⟩ => ⟨S256x512x1, .i32⟩
  | .hbm, ⟨15, _⟩ => ⟨S256x1x512, .i32⟩
  | .hbm, ⟨16, _⟩ => ⟨S256x512x512, .i32⟩
  | .hbm, ⟨17, _⟩ => ⟨S256x512x512, .i32⟩
  | .hbm, ⟨18, _⟩ => ⟨S256x512x512, .i1⟩
  | .hbm, ⟨19, _⟩ => ⟨S256x512x512, .i32⟩
  | .hbm, ⟨20, _⟩ => ⟨S_, .i32⟩
  | .hbm, ⟨21, _⟩ => ⟨S256x512, .i32⟩
  | .hbm, ⟨22, _⟩ => ⟨S256x512x1, .i32⟩
  | .hbm, ⟨23, _⟩ => ⟨S256x1x512, .i32⟩
  | .hbm, ⟨24, _⟩ => ⟨S256x512x512, .i32⟩
  | .hbm, ⟨25, _⟩ => ⟨S256x512x512, .i32⟩
  | .hbm, ⟨26, _⟩ => ⟨S256x512x512, .i1⟩
  | .hbm, ⟨27, _⟩ => ⟨S256x512x512, .i32⟩
  | .hbm, ⟨28, _⟩ => ⟨S_, .i32⟩
  | .hbm, ⟨29, _⟩ => ⟨S256x512, .i32⟩
  | .hbm, ⟨30, _⟩ => ⟨S256x512x1, .i32⟩
  | .hbm, ⟨31, _⟩ => ⟨S256x1x512, .i32⟩
  | .hbm, ⟨32, _⟩ => ⟨S256x512x512, .i32⟩
  | .hbm, ⟨33, _⟩ => ⟨S256x512x512, .i32⟩
  | .hbm, ⟨34, _⟩ => ⟨S256x512x512, .i1⟩
  | .hbm, ⟨35, _⟩ => ⟨S256x512x512, .i32⟩
  | .hbm, ⟨36, _⟩ => ⟨S_, .i32⟩
  | .hbm, ⟨37, _⟩ => ⟨S256x512, .i32⟩
  | .hbm, ⟨38, _⟩ => ⟨S256x512x1, .i32⟩
  | .hbm, ⟨39, _⟩ => ⟨S256x512x1, .i32⟩
  | .hbm, ⟨40, _⟩ => ⟨S256x512x2, .i32⟩
  | .hbm, ⟨41, _⟩ => ⟨S256x512x2, .f32⟩
  | .hbm, ⟨42, _⟩ => ⟨S256x512x1, .i32⟩
  | .hbm, ⟨43, _⟩ => ⟨S256x512x1, .i32⟩
  | .hbm, ⟨44, _⟩ => ⟨S256x512x2, .i32⟩
  | .hbm, ⟨45, _⟩ => ⟨S256x512x2, .f32⟩
  | .hbm, ⟨46, _⟩ => ⟨S_, .i32⟩
  | .hbm, ⟨47, _⟩ => ⟨S256x512, .i32⟩
  | .hbm, ⟨48, _⟩ => ⟨S256x512, .i1⟩
  | .hbm, ⟨49, _⟩ => ⟨S256x512x1, .i1⟩
  | .hbm, ⟨50, _⟩ => ⟨S_, .f32⟩
  | .hbm, ⟨51, _⟩ => ⟨S_, .f32⟩
  | .hbm, ⟨52, _⟩ => ⟨S256x512x2, .i1⟩
  | .hbm, ⟨53, _⟩ => ⟨S256x512x2, .f32⟩
  | .hbm, ⟨54, _⟩ => ⟨S256x512x2, .f32⟩
  | .hbm, ⟨55, _⟩ => ⟨S_, .i32⟩
  | .hbm, ⟨56, _⟩ => ⟨S256x512, .i32⟩
  | .hbm, ⟨57, _⟩ => ⟨S256x512, .i1⟩
  | .hbm, ⟨58, _⟩ => ⟨S256x512x1, .i1⟩
  | .hbm, ⟨59, _⟩ => ⟨S_, .f32⟩
  | .hbm, ⟨60, _⟩ => ⟨S_, .f32⟩
  | .hbm, ⟨61, _⟩ => ⟨S256x512x2, .i1⟩
  | .hbm, ⟨62, _⟩ => ⟨S256x512x2, .f32⟩
  | .hbm, ⟨63, _⟩ => ⟨S256x512x2, .f32⟩
  | .hbm, ⟨64, _⟩ => ⟨S256x512x2x1, .f32⟩
  | .hbm, ⟨65, _⟩ => ⟨S64, .f32⟩
  | .hbm, ⟨66, _⟩ => ⟨S1x1x1x64, .f32⟩
  | .hbm, ⟨67, _⟩ => ⟨S256x512x2x64, .f32⟩
  | .hbm, ⟨68, _⟩ => ⟨S256x512x2x64, .f32⟩
  | .hbm, ⟨69, _⟩ => ⟨S256x512x2x64, .f32⟩
  | .hbm, ⟨70, _⟩ => ⟨S1x1x1x64, .f32⟩
  | .hbm, ⟨71, _⟩ => ⟨S256x512x2x64, .f32⟩
  | .hbm, ⟨72, _⟩ => ⟨S256x512x2x64, .f32⟩
  | .hbm, ⟨73, _⟩ => ⟨S_, .f32⟩
  | .hbm, ⟨74, _⟩ => ⟨S256x512x2x64, .f32⟩
  | .hbm, ⟨75, _⟩ => ⟨S256x512x2x64, .f32⟩
  | .hbm, ⟨76, _⟩ => ⟨S256x512x2x64, .f32⟩
  | .hbm, ⟨77, _⟩ => ⟨S1x1x1x64, .f32⟩
  | .hbm, ⟨78, _⟩ => ⟨S256x512x2x64, .f32⟩
  | .hbm, ⟨79, _⟩ => ⟨S256x512x2x64, .f32⟩
  | .hbm, ⟨80, _⟩ => ⟨S_, .f32⟩
  | .hbm, ⟨81, _⟩ => ⟨S256x512x64, .f32⟩
  | .hbm, ⟨82, _⟩ => ⟨S256x512x2x1, .f32⟩
  | .hbm, ⟨83, _⟩ => ⟨S64, .f32⟩
  | .hbm, ⟨84, _⟩ => ⟨S1x1x1x64, .f32⟩
  | .hbm, ⟨85, _⟩ => ⟨S256x512x2x64, .f32⟩
  | .hbm, ⟨86, _⟩ => ⟨S256x512x2x64, .f32⟩
  | .hbm, ⟨87, _⟩ => ⟨S256x512x2x64, .f32⟩
  | .hbm, ⟨88, _⟩ => ⟨S1x1x1x64, .f32⟩
  | .hbm, ⟨89, _⟩ => ⟨S256x512x2x64, .f32⟩
  | .hbm, ⟨90, _⟩ => ⟨S256x512x2x64, .f32⟩
  | .hbm, ⟨91, _⟩ => ⟨S_, .f32⟩
  | .hbm, ⟨92, _⟩ => ⟨S256x512x2x64, .f32⟩
  | .hbm, ⟨93, _⟩ => ⟨S256x512x2x64, .f32⟩
  | .hbm, ⟨94, _⟩ => ⟨S256x512x2x64, .f32⟩
  | .hbm, ⟨95, _⟩ => ⟨S1x1x1x64, .f32⟩
  | .hbm, ⟨96, _⟩ => ⟨S256x512x2x64, .f32⟩
  | .hbm, ⟨97, _⟩ => ⟨S256x512x2x64, .f32⟩
  | .hbm, ⟨98, _⟩ => ⟨S_, .f32⟩
  | .hbm, ⟨99, _⟩ => ⟨S256x512x64, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call2_cst : Ref sig .tc := ⟨.hbm, 73, rfl⟩
abbrev main_call2_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call3_cst : Ref sig .tc := ⟨.hbm, 91, rfl⟩
abbrev main_call3_v0 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  natLt_1_32 : 1 < 32
  reducesTo_S256x512x512_S256x512_d2 : S256x512x512.ReducesTo [2] S256x512
  h_S_ : 0 < S_.numel
  concatenates_S256x512x1_S256x512x1_S256x512x2_d2 : Shape.Concatenates [S256x512x1, S256x512x1] S256x512x2 2
  bcast_S_S256x512 : S_.BroadcastsInDim S256x512 (![] : Fin 0 → Fin S256x512.rank)
  bcast_S256x512x1_S256x512x2_0_1_2 : S256x512x1.BroadcastsInDim S256x512x2 (![0, 1, 2] : Fin 3 → Fin S256x512x2.rank)
  bcast_S_S256x512x2 : S_.BroadcastsInDim S256x512x2 (![] : Fin 0 → Fin S256x512x2.rank)
  bcast_S256x512x2_S256x512x2x1_0_1_2 : S256x512x2.BroadcastsInDim S256x512x2x1 (![0, 1, 2] : Fin 3 → Fin S256x512x2x1.rank)
  shapeCasts_S64x1_S64 : S64x1.ShapeCasts S64
  bcast_S64_S1x1x1x64_3 : S64.BroadcastsInDim S1x1x1x64 (![3] : Fin 1 → Fin S1x1x1x64.rank)
  bcast_S256x512x2x1_S256x512x2x64_0_1_2_3 : S256x512x2x1.BroadcastsInDim S256x512x2x64 (![0, 1, 2, 3] : Fin 4 → Fin S256x512x2x64.rank)
  bcast_S1x1x1x64_S256x512x2x64_0_1_2_3 : S1x1x1x64.BroadcastsInDim S256x512x2x64 (![0, 1, 2, 3] : Fin 4 → Fin S256x512x2x64.rank)
  bcast_S_S256x512x2x64 : S_.BroadcastsInDim S256x512x2x64 (![] : Fin 0 → Fin S256x512x2x64.rank)
  reducesTo_S256x512x2x64_S256x512x64_d2 : S256x512x2x64.ReducesTo [2] S256x512x64
  dot_S256x512x2x64_S64x64_S256x512x2x64_3_1_012_0_n_n_wf : DotDims.WF S256x512x2x64 S64x64 S256x512x2x64 [3] [1] [0, 1, 2] [0] [] []

variable [Facts₀]

def dot_S256x512x2x64_S64x64_S256x512x2x64_3_1_012_0_n_n : DotDims S256x512x2x64 S64x64 S256x512x2x64 where
  lhsContracting := [3]
  rhsContracting := [1]
  lhsNonContracting := [0, 1, 2]
  rhsNonContracting := [0]
  lhsBatch := []
  rhsBatch := []
  wf := dot_S256x512x2x64_S64x64_S256x512x2x64_3_1_012_0_n_n_wf

class Facts : Prop extends Facts₀ where

variable [Facts]
-- ==== Proof.CooccurSpec.lean ====
/-
  WHAT BOTH PROGRAMS COMPUTE, one entry at a time.

  The inputs are two arrays of 256 rows of 512 identifiers (32-bit words), "src" and "dst", and the weights of a small
  encoder: a column `w1` and a bias `b1` of 64 entries, a 64 × 64 matrix `W2` and a bias `b2` of 64 entries.

  For position `l` of a row `x` and a row `y`, `count x y l` is how many entries of `y` equal `x l`: the sum over `j` of
  the equality bit of `x l` and `y j`, widened to a word and converted to a float. `maskedCount` is that count, but the
  float zero where `x l` is the padding identifier `0`. The encoder takes a count `c` to the vector whose entry `e` is
      (sum over d of max (c · w1 d + b1 d) 0 · W2 e d) + b2 e,
  and the feature at position `l`, entry `e`, of row `x` against rows `y` and `z` is the sum of the encodings of the
  two masked counts. The first result uses x = y = a src row and z = the dst row of the same index; the second uses
  x = z = a dst row and y = the src row.

  The float zero is kept as the bit pattern both programs print, `Ideal.ofBits .f32 0`: the same word on both sides is
  never evaluated.
-/
import Idealize.ShloMosaic.PureOps.Ideal
import Idealize.ShloMosaic.Lib.ValueIdx

noncomputable section

namespace Cert.Cooccur

open Idealize.ShloMosaic

/-- The float zero, as the bit pattern both programs print. -/
abbrev fzero : EReal := Ideal.ofBits .f32 0x00000000#32

/-- How many entries of the row `y` equal entry `l` of the row `x`, as a float. -/
def count (x y : Fin 512 → BitVec 32) (l : Fin 512) : EReal :=
  ∑ j : Fin 512, FloatOps.sitofp (F := Ideal) .f32 ((IntOp.cmpi .eq (x l) (y j)).setWidth 32)

/-- The count, but zero where entry `l` of `x` is the padding identifier `0`. -/
def maskedCount (x y : Fin 512 → BitVec 32) (l : Fin 512) : EReal :=
  Scalar.select (IntOp.cmpi .eq (x l) 0#32) fzero (count x y l)

/-- Entry `e` of the encoding of a count `c`: a 1 → 64 linear layer, the positive part, a 64 → 64 linear layer. -/
def encode (c : EReal) (w1 b1 : Fin 64 → EReal) (W2 : Fin 64 → Fin 64 → EReal) (b2 : Fin 64 → EReal) (e : Fin 64) : EReal :=
  (∑ d : Fin 64, max (c * w1 d + b1 d) fzero * W2 e d) + b2 e

/-- The feature at position `l`, entry `e`: the encodings of the masked counts of `x l` in `y` and in `z`, added. -/
def feat (x y z : Fin 512 → BitVec 32) (w1 b1 : Fin 64 → EReal) (W2 : Fin 64 → Fin 64 → EReal) (b2 : Fin 64 → EReal)
    (l : Fin 512) (e : Fin 64) : EReal :=
  encode (maskedCount x y l) w1 b1 W2 b2 e + encode (maskedCount x z l) w1 b1 W2 b2 e

end Cert.Cooccur

end
-- ==== Proof.KernelEncode.lean ====
/-
  THE KERNEL'S ENCODER, READ AT ONE ENTRY.

  Inside a block of 8 rows the kernel encodes a block of counts: it lays the counts along a new last axis, multiplies by
  the weight column and adds the first bias (both laid along the rows and positions), takes the positive part, flattens
  the 8 × 512 positions into 4096 rows, multiplies by the transposed 64 × 64 matrix into a zero accumulator, adds the
  second bias laid along the rows, and unflattens. Read at position (p, q) and entry e this is
      (sum over d of max (count (p, q) · w1 d + b1 d) 0 · W2 e d) + b2 e:
  every step but the matrix product moves values without changing them, the product into a zero accumulator is the plain
  sum over the contracted axis, and row p·512 + q of the flattened array is position (p, q).
  Both stored values of the kernel are two such encodings added.
-/
import proofs.«115043_j73701638799824_1_alg».proof.Proof.Gen.KernelIdeal.Skeleton
import proofs.«115043_j73701638799824_1_alg».proof.Proof.CooccurSpec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## Values moved, not changed -/

section Moves
variable {α : Type}

/-- Row `p·512 + q` of the 4096 flattened rows. -/
abbrev flat (p : Fin 8) (q : Fin 512) : Fin 4096 := ⟨p.val * 512 + q.val, by have := p.isLt; have := q.isLt; omega⟩

/-- A block of counts laid along a new last axis and repeated 64 times reads the count of its position. -/
theorem spread_count_apply (c : S8x512.Idx → α) (p : Fin 8) (q : Fin 512) (d : Fin 64) :
    broadcastTo S8x512x64 (shapeCast S8x512x1 c shapeCasts_S8x512_S8x512x1) broadcasts_S8x512x1_S8x512x64 (ix3 p q d)
      = c (ix2 p q) := by
  refine (broadcastTo_apply _ broadcasts_S8x512x1_S8x512x64 (ix3 p q d) (ix3 p q (0 : Fin 1)) (fun a => match a with
    | ⟨0, _⟩ => by show p.val = if (8 : Nat) = 1 then 0 else p.val; rw [if_neg (by decide)]
    | ⟨1, _⟩ => by show q.val = if (512 : Nat) = 1 then 0 else q.val; rw [if_neg (by decide)]
    | ⟨2, _⟩ => by show (0 : Nat) = if (1 : Nat) = 1 then 0 else d.val; rw [if_pos rfl])).trans ?_
  exact shapeCast_apply c shapeCasts_S8x512_S8x512x1 (ix3 p q (0 : Fin 1)) (ix2 p q) (by
    rw [Shape.rowMajor_val_two, Shape.rowMajor_val_three]
    show p.val * 512 + q.val = (p.val * 512 + q.val) * 1 + 0; omega)

/-- The weight column, read as a vector and laid along every row and position, reads its entry `d`. -/
theorem spread_col_apply (w : S64x1.Idx → α) (p : Fin 8) (q : Fin 512) (d : Fin 64) :
    broadcastTo S8x512x64 (shapeCast S1x1x64 (shapeCast S64 w shapeCasts_S64x1_S64) shapeCasts_S64_S1x1x64)
        broadcasts_S1x1x64_S8x512x64 (ix3 p q d)
      = w (ix2 d (0 : Fin 1)) := by
  refine (broadcastTo_apply _ broadcasts_S1x1x64_S8x512x64 (ix3 p q d) (ix3 (0 : Fin 1) (0 : Fin 1) d) (fun a => match a with
    | ⟨0, _⟩ => by show (0 : Nat) = if (1 : Nat) = 1 then 0 else p.val; rw [if_pos rfl]
    | ⟨1, _⟩ => by show (0 : Nat) = if (1 : Nat) = 1 then 0 else q.val; rw [if_pos rfl]
    | ⟨2, _⟩ => by show d.val = if (64 : Nat) = 1 then 0 else d.val; rw [if_neg (by decide)])).trans ?_
  refine (shapeCast_apply _ shapeCasts_S64_S1x1x64 (ix3 (0 : Fin 1) (0 : Fin 1) d) (ix1 d) (by
    rw [Shape.rowMajor_val_one, Shape.rowMajor_val_three]
    show d.val = (0 * 1 + 0) * 64 + d.val; omega)).trans ?_
  exact shapeCast_apply w shapeCasts_S64x1_S64 (ix1 d) (ix2 d (0 : Fin 1)) (by
    rw [Shape.rowMajor_val_two, Shape.rowMajor_val_one]
    show d.val * 1 + 0 = d.val; omega)

/-- A one-row bias, read as a vector and laid along every row and position, reads its entry `d`. -/
theorem spread_row_apply (b : S1x64.Idx → α) (p : Fin 8) (q : Fin 512) (d : Fin 64) :
    broadcastTo S8x512x64 (shapeCast S1x1x64 (shapeCast S64 b shapeCasts_S1x64_S64) shapeCasts_S64_S1x1x64)
        broadcasts_S1x1x64_S8x512x64 (ix3 p q d)
      = b (ix2 (0 : Fin 1) d) := by
  refine (broadcastTo_apply _ broadcasts_S1x1x64_S8x512x64 (ix3 p q d) (ix3 (0 : Fin 1) (0 : Fin 1) d) (fun a => match a with
    | ⟨0, _⟩ => by show (0 : Nat) = if (1 : Nat) = 1 then 0 else p.val; rw [if_pos rfl]
    | ⟨1, _⟩ => by show (0 : Nat) = if (1 : Nat) = 1 then 0 else q.val; rw [if_pos rfl]
    | ⟨2, _⟩ => by show d.val = if (64 : Nat) = 1 then 0 else d.val; rw [if_neg (by decide)])).trans ?_
  refine (shapeCast_apply _ shapeCasts_S64_S1x1x64 (ix3 (0 : Fin 1) (0 : Fin 1) d) (ix1 d) (by
    rw [Shape.rowMajor_val_one, Shape.rowMajor_val_three]
    show d.val = (0 * 1 + 0) * 64 + d.val; omega)).trans ?_
  exact shapeCast_apply b shapeCasts_S1x64_S64 (ix1 d) (ix2 (0 : Fin 1) d) (by
    rw [Shape.rowMajor_val_two, Shape.rowMajor_val_one]
    show 0 * 64 + d.val = d.val; omega)

/-- A one-row bias laid along each of the 4096 flattened rows reads its entry `e`. -/
theorem spread_row_flat_apply (b : S1x64.Idx → α) (r : Fin 4096) (e : Fin 64) :
    broadcastTo S4096x64 (shapeCast S1x64 (shapeCast S64 b shapeCasts_S1x64_S64) shapeCasts_S64_S1x64)
        broadcasts_S1x64_S4096x64 (ix2 r e)
      = b (ix2 (0 : Fin 1) e) := by
  refine (broadcastTo_apply _ broadcasts_S1x64_S4096x64 (ix2 r e) (ix2 (0 : Fin 1) e) (fun a => match a with
    | ⟨0, _⟩ => by show (0 : Nat) = if (1 : Nat) = 1 then 0 else r.val; rw [if_pos rfl]
    | ⟨1, _⟩ => by show e.val = if (64 : Nat) = 1 then 0 else e.val; rw [if_neg (by decide)])).trans ?_
  refine (shapeCast_apply _ shapeCasts_S64_S1x64 (ix2 (0 : Fin 1) e) (ix1 e) (by
    rw [Shape.rowMajor_val_one, Shape.rowMajor_val_two]
    show e.val = 0 * 64 + e.val; omega)).trans ?_
  exact shapeCast_apply b shapeCasts_S1x64_S64 (ix1 e) (ix2 (0 : Fin 1) e) (by
    rw [Shape.rowMajor_val_two, Shape.rowMajor_val_one]
    show 0 * 64 + e.val = e.val; omega)

/-- Flattening the 8 × 512 positions: row `p·512 + q` is position (p, q). -/
theorem flatten_apply (x : S8x512x64.Idx → α) (p : Fin 8) (q : Fin 512) (d : Fin 64) :
    shapeCast S4096x64 x shapeCasts_S8x512x64_S4096x64 (ix2 (flat p q) d) = x (ix3 p q d) :=
  shapeCast_apply x shapeCasts_S8x512x64_S4096x64 (ix2 (flat p q) d) (ix3 p q d) (by
    rw [Shape.rowMajor_val_two, Shape.rowMajor_val_three]
    show (p.val * 512 + q.val) * 64 + d.val = (p.val * 512 + q.val) * 64 + d.val; rfl)

/-- Unflattening: position (p, q) is row `p·512 + q`. -/
theorem unflatten_apply (y : S4096x64.Idx → α) (p : Fin 8) (q : Fin 512) (e : Fin 64) :
    shapeCast S8x512x64 y shapeCasts_S4096x64_S8x512x64 (ix3 p q e) = y (ix2 (flat p q) e) :=
  shapeCast_apply y shapeCasts_S4096x64_S8x512x64 (ix3 p q e) (ix2 (flat p q) e) (by
    rw [Shape.rowMajor_val_two, Shape.rowMajor_val_three]
    show (p.val * 512 + q.val) * 64 + e.val = (p.val * 512 + q.val) * 64 + e.val; rfl)

/-- The transposed matrix at (k, e) is the matrix at (e, k). -/
theorem transposed_apply (W : S64x64.Idx → α) (k e : Fin 64) :
    transpose S64x64 [1, 0] W transposes_S64x64_p1_0_S64x64 (ix2 k e) = W (ix2 e k) :=
  transpose_apply [1, 0] W transposes_S64x64_p1_0_S64x64 (ix2 k e) (ix2 e k) (fun b => match b with
    | ⟨0, _⟩ => rfl
    | ⟨1, _⟩ => rfl)

end Moves

/-! ## The matrix product into a zero accumulator -/

theorem lhs_mm_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_mm_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_mm_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_mm_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- At the ideal values the kernel's 4096 × 64 by 64 × 64 product into a zero accumulator is, at row `r` and column `e`,
    the sum over `k` of the left factor at (r, k) times the right factor at (k, e). -/
theorem matmul_zero_apply (L : FVec Ideal S4096x64 .f32) (R : FVec Ideal S64x64 .f32) (r : Fin 4096) (e : Fin 64) :
    matmul dot_S4096x64_S64x64_S4096x64_1_0_0_1_n_n none L R (constant S4096x64 .f32 0x00000000#32) (ix2 r e)
      = ∑ k : Fin 64, L (ix2 r k) * R (ix2 k e) := by
  show FloatOps.matmul dot_S4096x64_S64x64_S4096x64_1_0_0_1_n_n none L R (constant S4096x64 .f32 0x00000000#32) (ix2 r e) = _
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r e) ((contrEquiv1 dot_S4096x64_S64x64_S4096x64_1_0_0_1_n_n 64 rfl rfl).symm k) = ix2 r k := funext fun a => Fin.ext (by
    match a with
    | ⟨0, _⟩ => exact lhs_mm_0 _ _
    | ⟨1, _⟩ => exact (lhs_mm_1 _ _).trans hk)
  have er : dot_S4096x64_S64x64_S4096x64_1_0_0_1_n_n.rhsIdx (ix2 r e) ((contrEquiv1 dot_S4096x64_S64x64_S4096x64_1_0_0_1_n_n 64 rfl rfl).symm k) = ix2 k e := funext fun a => Fin.ext (by
    match a with
    | ⟨0, _⟩ => exact (rhs_mm_0 _ _).trans hk
    | ⟨1, _⟩ => exact rhs_mm_1 _ _)
  rw [el, er]

/-! ## The encoder -/

section Encoder
variable {F : FTy → Type} [FloatOps F]

/-- The hidden layer on a block: counts times the weight column plus the first bias, positive part. -/
def hidden (c : FVec F S8x512 .f32) (w1 : Vec F S64x1 .f32) (b1r : FVec F S1x64 .f32) : FVec F S8x512x64 .f32 :=
  maximumf
    (addf
      (mulf (broadcastTo S8x512x64 (shapeCast S8x512x1 c shapeCasts_S8x512_S8x512x1) broadcasts_S8x512x1_S8x512x64)
        (broadcastTo S8x512x64 (shapeCast S1x1x64 (shapeCast S64 w1 shapeCasts_S64x1_S64) shapeCasts_S64_S1x1x64) broadcasts_S1x1x64_S8x512x64))
      (broadcastTo S8x512x64 (shapeCast S1x1x64 (shapeCast S64 b1r shapeCasts_S1x64_S64) shapeCasts_S64_S1x1x64) broadcasts_S1x1x64_S8x512x64))
    (broadcast S8x512x64 (Scalar.ofBits .f32 0x00000000#32))

/-- The kernel's encoding of a block of counts. -/
def encoded (c : FVec F S8x512 .f32) (w1 : Vec F S64x1 .f32) (b1r : FVec F S1x64 .f32) (W2 : Vec F S64x64 .f32)
    (b2r : FVec F S1x64 .f32) : FVec F S8x512x64 .f32 :=
  shapeCast S8x512x64
    (addf
      (matmul dot_S4096x64_S64x64_S4096x64_1_0_0_1_n_n none (shapeCast S4096x64 (hidden c w1 b1r) shapeCasts_S8x512x64_S4096x64)
        (transpose S64x64 [1, 0] W2 transposes_S64x64_p1_0_S64x64) (constant S4096x64 .f32 0x00000000#32))
      (broadcastTo S4096x64 (shapeCast S1x64 (shapeCast S64 b2r shapeCasts_S1x64_S64) shapeCasts_S64_S1x64) broadcasts_S1x64_S4096x64))
    shapeCasts_S4096x64_S8x512x64

/-- The value stored to the first result's block is two encodings added. -/
theorem pay12_eq (v39 v41 : FVec F S8x512 .f32) (v46 : Vec F S64x1 .f32) (v47 : Vec F S1x64 .f32) (v49 : Vec F S64x64 .f32)
    (v50 : Vec F S1x64 .f32) :
    k0_pay12 v39 v41 v46 v47 v49 v50
      = addf (encoded v39 v46 (k0_pay10 v47) v49 (k0_pay11 v50)) (encoded v41 v46 (k0_pay10 v47) v49 (k0_pay11 v50)) := rfl

/-- The value stored to the second result's block is two encodings added. -/
theorem pay1_eq (v43 v45 : FVec F S8x512 .f32) (v46 : Vec F S64x1 .f32) (v48 : FVec F S1x64 .f32) (v49 : Vec F S64x64 .f32)
    (v51 : FVec F S1x64 .f32) :
    k0_pay1 v43 v45 v46 v48 v49 v51 = addf (encoded v43 v46 v48 v49 v51) (encoded v45 v46 v48 v49 v51) := rfl

end Encoder

/-- The hidden layer at position (p, q), unit `d`. -/
theorem hidden_apply (c : FVec Ideal S8x512 .f32) (w1 : Vec Ideal S64x1 .f32) (b1r : FVec Ideal S1x64 .f32)
    (p : Fin 8) (q : Fin 512) (d : Fin 64) :
    hidden c w1 b1r (ix3 p q d)
      = max (c (ix2 p q) * w1 (ix2 d (0 : Fin 1)) + b1r (ix2 (0 : Fin 1) d)) Cooccur.fzero := by
  show max (broadcastTo S8x512x64 (shapeCast S8x512x1 c shapeCasts_S8x512_S8x512x1) broadcasts_S8x512x1_S8x512x64 (ix3 p q d)
      * broadcastTo S8x512x64 (shapeCast S1x1x64 (shapeCast S64 w1 shapeCasts_S64x1_S64) shapeCasts_S64_S1x1x64) broadcasts_S1x1x64_S8x512x64 (ix3 p q d)
      + broadcastTo S8x512x64 (shapeCast S1x1x64 (shapeCast S64 b1r shapeCasts_S1x64_S64) shapeCasts_S64_S1x1x64) broadcasts_S1x1x64_S8x512x64 (ix3 p q d))
      (Ideal.ofBits .f32 0x00000000#32) = _
  rw [spread_count_apply, spread_col_apply, spread_row_apply]

/-- THE ENCODER AT AN ENTRY: the kernel's encoding of a block of counts, at position (p, q) and entry `e`, is the
    specification's encoding of the count at (p, q) with the weights read off their blocks. -/
theorem encoded_apply (c : FVec Ideal S8x512 .f32) (w1 : Vec Ideal S64x1 .f32) (b1r : FVec Ideal S1x64 .f32)
    (W2 : Vec Ideal S64x64 .f32) (b2r : FVec Ideal S1x64 .f32) (p : Fin 8) (q : Fin 512) (e : Fin 64) :
    encoded c w1 b1r W2 b2r (ix3 p q e)
      = Cooccur.encode (c (ix2 p q)) (fun d => w1 (ix2 d (0 : Fin 1))) (fun d => b1r (ix2 (0 : Fin 1) d))
          (fun e' d => W2 (ix2 e' d)) (fun e' => b2r (ix2 (0 : Fin 1) e')) e := by
  unfold encoded Cooccur.encode
  rw [unflatten_apply]
  show matmul dot_S4096x64_S64x64_S4096x64_1_0_0_1_n_n none (shapeCast S4096x64 (hidden c w1 b1r) shapeCasts_S8x512x64_S4096x64)
        (transpose S64x64 [1, 0] W2 transposes_S64x64_p1_0_S64x64) (constant S4096x64 .f32 0x00000000#32) (ix2 (flat p q) e)
      + broadcastTo S4096x64 (shapeCast S1x64 (shapeCast S64 b2r shapeCasts_S1x64_S64) shapeCasts_S64_S1x64) broadcasts_S1x64_S4096x64 (ix2 (flat p q) e) = _
  rw [matmul_zero_apply, spread_row_flat_apply]
  refine congrArg (· + b2r (ix2 (0 : Fin 1) e)) (Finset.sum_congr rfl fun d _ => ?_)
  rw [flatten_apply, transposed_apply, hidden_apply]

end Cert.KernelIdeal.Block

end
-- ==== Proof.KernelCounts.lean ====
/-
  THE KERNEL'S COUNTS, READ AT ONE POSITION.

  Inside a block of 8 rows the kernel counts, for position q of row p of a block `a`, the entries of row p of a block `b`
  that equal it: `a` is laid along a new last axis and `b` along a new middle axis, both are repeated to 8 × 512 × 512, the
  two are compared, the equality bits widened to words and converted to floats, and the floats added along the last axis.
  At the ideal values that sum over one axis is the plain sum over its 512 coordinates, so the count at (p, q) is the
  specification's count of row p of `a` against row p of `b`. The count is then replaced by the float zero where the
  identifier at (p, q) is zero. All four counts of the kernel are this one construction at (src, src), (src, dst),
  (dst, src) and (dst, dst).
-/
import proofs.«115043_j73701638799824_1_alg».proof.Proof.Gen.KernelIdeal.Skeleton
import proofs.«115043_j73701638799824_1_alg».proof.Proof.CooccurSpec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

section Moves
variable {α : Type}

/-- A block laid along a new last axis and repeated 512 times reads its entry at (p, q), whatever the last coordinate. -/
theorem spread_last_apply (a : S8x512.Idx → α) (p : Fin 8) (q k : Fin 512) :
    broadcastTo S8x512x512 (shapeCast S8x512x1 a shapeCasts_S8x512_S8x512x1) broadcasts_S8x512x1_S8x512x512 (ix3 p q k)
      = a (ix2 p q) := by
  refine (broadcastTo_apply _ broadcasts_S8x512x1_S8x512x512 (ix3 p q k) (ix3 p q (0 : Fin 1)) (fun c => match c with
    | ⟨0, _⟩ => by show p.val = if (8 : Nat) = 1 then 0 else p.val; rw [if_neg (by decide)]
    | ⟨1, _⟩ => by show q.val = if (512 : Nat) = 1 then 0 else q.val; rw [if_neg (by decide)]
    | ⟨2, _⟩ => by show (0 : Nat) = if (1 : Nat) = 1 then 0 else k.val; rw [if_pos rfl])).trans ?_
  exact shapeCast_apply a shapeCasts_S8x512_S8x512x1 (ix3 p q (0 : Fin 1)) (ix2 p q) (by
    rw [Shape.rowMajor_val_two, Shape.rowMajor_val_three]
    show p.val * 512 + q.val = (p.val * 512 + q.val) * 1 + 0; omega)

/-- A block laid along a new middle axis and repeated 512 times reads its entry at (p, k), whatever the middle coordinate. -/
theorem spread_middle_apply (b : S8x512.Idx → α) (p : Fin 8) (q k : Fin 512) :
    broadcastTo S8x512x512 (shapeCast S8x1x512 b shapeCasts_S8x512_S8x1x512) broadcasts_S8x1x512_S8x512x512 (ix3 p q k)
      = b (ix2 p k) := by
  refine (broadcastTo_apply _ broadcasts_S8x1x512_S8x512x512 (ix3 p q k) (ix3 p (0 : Fin 1) k) (fun c => match c with
    | ⟨0, _⟩ => by show p.val = if (8 : Nat) = 1 then 0 else p.val; rw [if_neg (by decide)]
    | ⟨1, _⟩ => by show (0 : Nat) = if (1 : Nat) = 1 then 0 else q.val; rw [if_pos rfl]
    | ⟨2, _⟩ => by show k.val = if (512 : Nat) = 1 then 0 else k.val; rw [if_neg (by decide)])).trans ?_
  exact shapeCast_apply b shapeCasts_S8x512_S8x1x512 (ix3 p (0 : Fin 1) k) (ix2 p k) (by
    rw [Shape.rowMajor_val_two, Shape.rowMajor_val_three]
    show p.val * 512 + k.val = (p.val * 1 + 0) * 512 + k.val; omega)

end Moves

section Counts
variable {F : FTy → Type} [FloatOps F]

/-- The counts, on a block: for each position of `a`, the sum along the last axis of the converted equality bits against `b`. -/
def blockCount (a b : IVec S8x512 32) : FVec F S8x512 .f32 :=
  multiReduction .add [2] S8x512
    (sitofp .f32 (extui 32
      (cmpi .eq (broadcastTo S8x512x512 (shapeCast S8x512x1 a shapeCasts_S8x512_S8x512x1) broadcasts_S8x512x1_S8x512x512)
        (broadcastTo S8x512x512 (shapeCast S8x1x512 b shapeCasts_S8x512_S8x1x512) broadcasts_S8x1x512_S8x512x512))
      natLt_1_32))
    0x00000000#32 reduces_S8x512x512_S8x512 (.inl rfl) rfl

/-- The counts with the float zero where the identifier of `a` is zero. -/
def maskedBlock (a b : IVec S8x512 32) : FVec F S8x512 .f32 :=
  select (cmpi .eq a (broadcast S8x512 0#32)) (broadcast S8x512 (Scalar.ofBits .f32 0x00000000#32)) (blockCount a b)

/-- src against src. -/
theorem pay5_eq (v0 : Vec F S8x512 .i32) : k0_pay5 (F := F) v0 = maskedBlock v0 v0 := rfl
/-- src against dst. -/
theorem pay6_eq (v0 v1 : Vec F S8x512 .i32) : k0_pay6 (F := F) v0 v1 = maskedBlock v0 v1 := rfl
/-- dst against src. -/
theorem pay7_eq (v0 v1 : Vec F S8x512 .i32) : k0_pay7 (F := F) v0 v1 = maskedBlock v1 v0 := rfl
/-- dst against dst. -/
theorem pay9_eq (v1 : Vec F S8x512 .i32) :
    k0_pay9 (k0_pay2 (F := F) v1) (k0_pay4 (F := F) v1) (k0_pay8 (F := F)) = maskedBlock v1 v1 := rfl

end Counts

/-- The block's count at (p, q) is the specification's count of row p of `a` against row p of `b`, at position q. -/
theorem blockCount_apply (a b : IVec S8x512 32) (p : Fin 8) (q : Fin 512) :
    blockCount (F := Ideal) a b (ix2 p q) = Cooccur.count (fun j => a (ix2 p j)) (fun j => b (ix2 p j)) q := by
  unfold blockCount Cooccur.count
  refine (Ideal.multiReduction_add_single _ _ reduces_S8x512x512_S8x512 _ _ (ix2 p q)).trans ?_
  refine Finset.sum_congr rfl fun k _ => ?_
  have hl : reduces_S8x512x512_S8x512.lift (ix2 p q) k = ix3 p q (⟨k.val, k.isLt⟩ : Fin 512) :=
    funext fun c => Fin.ext (by match c with | ⟨0, _⟩ => rfl | ⟨1, _⟩ => rfl | ⟨2, _⟩ => rfl)
  rw [hl]
  show FloatOps.sitofp (F := Ideal) .f32 ((IntOp.cmpi .eq
      (broadcastTo S8x512x512 (shapeCast S8x512x1 a shapeCasts_S8x512_S8x512x1) broadcasts_S8x512x1_S8x512x512 (ix3 p q (⟨k.val, k.isLt⟩ : Fin 512)))
      (broadcastTo S8x512x512 (shapeCast S8x1x512 b shapeCasts_S8x512_S8x1x512) broadcasts_S8x1x512_S8x512x512 (ix3 p q (⟨k.val, k.isLt⟩ : Fin 512)))).setWidth 32) = _
  rw [spread_last_apply, spread_middle_apply]
  rfl

/-- The masked count at (p, q) is the specification's. -/
theorem maskedBlock_apply (a b : IVec S8x512 32) (p : Fin 8) (q : Fin 512) :
    maskedBlock (F := Ideal) a b (ix2 p q) = Cooccur.maskedCount (fun j => a (ix2 p j)) (fun j => b (ix2 p j)) q := by
  show Scalar.select (IntOp.cmpi .eq (a (ix2 p q)) 0#32) (Ideal.ofBits .f32 0x00000000#32) (blockCount (F := Ideal) a b (ix2 p q)) = _
  rw [blockCount_apply]
  rfl

end Cert.KernelIdeal.Block

end
-- ==== Proof.KernelBlock.lean ====
/-
  WHAT THE KERNEL STORES, ONE ENTRY OF A BLOCK AT A TIME.

  At a grid point the kernel holds a block of 8 rows of src and of dst identifiers and the four weight arrays (the two
  biases as one-row matrices). The value it stores to the first result's block is, at row p, position q, entry e, the
  feature of row p of the src block against row p of the src block and row p of the dst block; the value stored to the
  second result's block is the feature of row p of the dst block against row p of the src block and row p of the dst
  block. This joins the two halves read before: the masked counts of a block, and the encoder of a block of counts.
-/
import proofs.«115043_j73701638799824_1_alg».proof.Proof.KernelEncode
import proofs.«115043_j73701638799824_1_alg».proof.Proof.KernelCounts

noncomputable section

namespace Cert.KernelIdeal.Block

open Cert.KernelIdeal Cert.KernelIdeal.Gen Idealize.ShloMosaic Idealize.ShloMosaic.ValueIdx

/-- A one-row bias cast to its own shape is itself. -/
theorem pay10_eq (x3 : Vec Ideal S1x64 .f32) : k0_pay10 (F := Ideal) x3 = x3 := shapeCast_self x3 shapeCasts_S1x64_S1x64
theorem pay11_eq (x5 : Vec Ideal S1x64 .f32) : k0_pay11 (F := Ideal) x5 = x5 := shapeCast_self x5 shapeCasts_S1x64_S1x64

/-- The first result's block at (p, q, e): src row p against src row p and dst row p. -/
theorem srcBlock_apply (x0 x1 : Vec Ideal S8x512 .i32) (x2 : Vec Ideal S64x1 .f32) (x3 : Vec Ideal S1x64 .f32)
    (x4 : Vec Ideal S64x64 .f32) (x5 : Vec Ideal S1x64 .f32) (p : Fin 8) (q : Fin 512) (e : Fin 64) :
    k0_pay12 (k0_pay5 x0) (k0_pay6 x0 x1) x2 x3 x4 x5 (ix3 p q e)
      = Cooccur.feat (fun j => x0 (ix2 p j)) (fun j => x0 (ix2 p j)) (fun j => x1 (ix2 p j))
          (fun d => x2 (ix2 d (0 : Fin 1))) (fun d => x3 (ix2 (0 : Fin 1) d)) (fun e' d => x4 (ix2 e' d))
          (fun e' => x5 (ix2 (0 : Fin 1) e')) q e := by
  rw [pay12_eq, pay5_eq, pay6_eq, pay10_eq, pay11_eq]
  show encoded (maskedBlock x0 x0) x2 x3 x4 x5 (ix3 p q e) + encoded (maskedBlock x0 x1) x2 x3 x4 x5 (ix3 p q e) = _
  rw [encoded_apply, encoded_apply, maskedBlock_apply, maskedBlock_apply]
  rfl

/-- The second result's block at (p, q, e): dst row p against src row p and dst row p. -/
theorem dstBlock_apply (x0 x1 : Vec Ideal S8x512 .i32) (x2 : Vec Ideal S64x1 .f32) (x3 : Vec Ideal S1x64 .f32)
    (x4 : Vec Ideal S64x64 .f32) (x5 : Vec Ideal S1x64 .f32) (p : Fin 8) (q : Fin 512) (e : Fin 64) :
    k0_pay1 (k0_pay7 x0 x1) (k0_pay9 (k0_pay2 x1) (k0_pay4 x1) (k0_pay8 (F := Ideal))) x2 (k0_pay10 x3) x4 (k0_pay11 x5) (ix3 p q e)
      = Cooccur.feat (fun j => x1 (ix2 p j)) (fun j => x0 (ix2 p j)) (fun j => x1 (ix2 p j))
          (fun d => x2 (ix2 d (0 : Fin 1))) (fun d => x3 (ix2 (0 : Fin 1) d)) (fun e' d => x4 (ix2 e' d))
          (fun e' => x5 (ix2 (0 : Fin 1) e')) q e := by
  rw [pay1_eq, pay7_eq, pay9_eq, pay10_eq, pay11_eq]
  show encoded (maskedBlock x1 x0) x2 x3 x4 x5 (ix3 p q e) + encoded (maskedBlock x1 x1) x2 x3 x4 x5 (ix3 p q e) = _
  rw [encoded_apply, encoded_apply, maskedBlock_apply, maskedBlock_apply]
  rfl

end Cert.KernelIdeal.Block

end
-- ==== Proof.CooccurArrays.lean ====
/-
  THE TWO RESULTS AS WHOLE ARRAYS: entry (r, l, e) of the first is the feature of row r of src against rows r of src and
  of dst, at position l and entry e; of the second, the feature of row r of dst against rows r of src and of dst. The
  weights are read off their arrays: the column `W1` at (d, 0), the biases at d, the matrix `W2` at (e, d).
-/
import proofs.«115043_j73701638799824_1_alg».proof.Proof.CooccurSpec

noncomputable section

namespace Cert.Cooccur

open Idealize.ShloMosaic Idealize.ShloMosaic.ValueIdx

/-- Row `r` of a 256 × 512 array of identifiers. -/
abbrev row (a : (⟨2, ![256, 512]⟩ : Shape).Idx → BitVec 32) (r : Fin 256) : Fin 512 → BitVec 32 := fun j => a (ix2 r j)

/-- The first result. -/
def srcFeat (src dst : (⟨2, ![256, 512]⟩ : Shape).Idx → BitVec 32) (W1 : (⟨2, ![64, 1]⟩ : Shape).Idx → EReal)
    (b1 : (⟨1, ![64]⟩ : Shape).Idx → EReal) (W2 : (⟨2, ![64, 64]⟩ : Shape).Idx → EReal) (b2 : (⟨1, ![64]⟩ : Shape).Idx → EReal) :
    (⟨3, ![256, 512, 64]⟩ : Shape).Idx → EReal :=
  fun i => feat (row src (i 0)) (row src (i 0)) (row dst (i 0)) (fun d => W1 (ix2 d (0 : Fin 1))) (fun d => b1 (ix1 d))
    (fun e d => W2 (ix2 e d)) (fun e => b2 (ix1 e)) (i 1) (i 2)

/-- The second result. -/
def dstFeat (src dst : (⟨2, ![256, 512]⟩ : Shape).Idx → BitVec 32) (W1 : (⟨2, ![64, 1]⟩ : Shape).Idx → EReal)
    (b1 : (⟨1, ![64]⟩ : Shape).Idx → EReal) (W2 : (⟨2, ![64, 64]⟩ : Shape).Idx → EReal) (b2 : (⟨1, ![64]⟩ : Shape).Idx → EReal) :
    (⟨3, ![256, 512, 64]⟩ : Shape).Idx → EReal :=
  fun i => feat (row dst (i 0)) (row src (i 0)) (row dst (i 0)) (fun d => W1 (ix2 d (0 : Fin 1))) (fun d => b1 (ix1 d))
    (fun e d => W2 (ix2 e d)) (fun e => b2 (ix1 e)) (i 1) (i 2)

end Cert.Cooccur

end
-- ==== Proof.KernelArray.lean ====
/-
  FROM BLOCKS TO THE TWO RESULT ARRAYS.

  The grid has 32 points; point t reads rows 8t … 8t + 7 of src and of dst (and the whole weight arrays, the two biases
  as the one-row matrices the host made of them before the launch) and writes rows 8t … 8t + 7 of both results. What a
  point writes back is the block, at its rows, of ONE function of the whole argument arrays: the specification's
  `srcFeat` for the first result and `dstFeat` for the second. The 32 blocks tile each result, so after the run each
  result array is that function of the arguments.
-/
import proofs.«115043_j73701638799824_1_alg».proof.Proof.Gen.KernelIdeal.Value
import proofs.«115043_j73701638799824_1_alg».proof.Proof.KernelBlock
import proofs.«115043_j73701638799824_1_alg».proof.Proof.CooccurArrays
import Idealize.ShloMosaic.Lib.StableHlo.Run
import Idealize.ShloMosaic.PureOps.Ideal

set_option maxRecDepth 16384

noncomputable section

namespace Cert.KernelIdeal.Whole

open Cert.KernelIdeal Cert.KernelIdeal.Gen Cert.KernelIdeal.Block Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The two biases as the host laid them out before the launch -/

/-- The first bias as a one-row matrix is the bias vector, entry by entry. -/
theorem bias1_row (c : Dev nD) (d : Fin 64) :
    m ((c : Thread nD τ).loc main_arg3) (ix1 d) = (V m c main_v0 : S1x64.Idx → EReal) (ix2 (0 : Fin 1) d) := by
  have e : (V m c main_v0 : S1x64.Idx → EReal) = shapeCast S1x64 (m ((c : Thread nD τ).loc main_arg3)) shapeCasts_S64_S1x64 := by
    dsimp only [Gen.V, Gen.hostOps0]; after_results; rfl
  rw [e]
  exact (shapeCast_apply _ shapeCasts_S64_S1x64 (ix2 (0 : Fin 1) d) (ix1 d) (by
    rw [Shape.rowMajor_val_one, Shape.rowMajor_val_two]; show d.val = 0 * 64 + d.val; omega)).symm

/-- The second bias likewise. -/
theorem bias2_row (c : Dev nD) (d : Fin 64) :
    m ((c : Thread nD τ).loc main_arg5) (ix1 d) = (V m c main_v1 : S1x64.Idx → EReal) (ix2 (0 : Fin 1) d) := by
  have e : (V m c main_v1 : S1x64.Idx → EReal) = shapeCast S1x64 (m ((c : Thread nD τ).loc main_arg5)) shapeCasts_S64_S1x64 := by
    dsimp only [Gen.V, Gen.hostOps0]; after_results; rfl
  rw [e]
  exact (shapeCast_apply _ shapeCasts_S64_S1x64 (ix2 (0 : Fin 1) d) (ix1 d) (by
    rw [Shape.rowMajor_val_one, Shape.rowMajor_val_two]; show d.val = 0 * 64 + d.val; omega)).symm

/-! ## The printed index maps, decided over the grid -/

/-- The src and dst windows and both result windows move together along the rows; every other block index is zero. -/
theorem idx_facts : ∀ t : Fin cfg0.N,
    win0_0.index t (0 : Fin 2) = win0_6.index t (0 : Fin 3) ∧ win0_0.index t (1 : Fin 2) = 0
    ∧ win0_1.index t (0 : Fin 2) = win0_6.index t (0 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 3) = 0 ∧ win0_6.index t (2 : Fin 3) = 0
    ∧ win0_7.index t (0 : Fin 3) = win0_6.index t (0 : Fin 3) ∧ win0_7.index t (1 : Fin 3) = 0 ∧ win0_7.index t (2 : Fin 3) = 0 :=
  (by decide +kernel : ∀ t : Fin grid0.N, _)

/-! ## Output window 6 -/

/-- Every block of the result is some grid point's. -/
theorem idx_onto6 : ∀ q0 : Fin 32, ∃ t : Fin cfg0.N, win0_6.index t = ![q0.val, 0, 0] :=
  (by decide +kernel : ∀ q0 : Fin 32, ∃ t : Fin grid0.N, win0_6.index t = ![q0.val, 0, 0])

/-- WHAT POINT `t` WRITES BACK is block `t` of the result array: at row p, position q, entry e of the block the stored
    value is the feature of the blocks' rows p, and row p of an input block at point `t` is the array's row 8·(block
    index) + p, the row the output block's (p, q, e) lands on; the weights' blocks are the whole weight arrays. -/
theorem flushed6_eq (c : Dev nD) (t : Fin cfg0.N) :
    (dats m 0 c).flushed 6 t = ((cfg0.win 6).blk t).view.read (Elt Ideal)
      (Cooccur.srcFeat (V m c main_arg0) (V m c main_arg1) (V m c main_arg2) (m ((c : Thread nD τ).loc main_arg3))
        (V m c main_arg4) (m ((c : Thread nD τ).loc main_arg5))) := by
  rw [Value.flushed6]
  unfold out0_6
  rw [View.canon_unit_zero hz3]
  simp only [View.ld_unit_zero (S := S8x512) hz2, View.ld_unit_zero (S := S64x1) hz2, View.ld_unit_zero (S := S1x64) hz2,
    View.ld_unit_zero (S := S64x64) hz2]
  obtain ⟨a00, a01, a10, a11, a20, a21, a30, a31, a40, a41, a50, a51, a61, a62, a70, a71, a72⟩ := idx_facts t
  funext j
  obtain ⟨p, q, e, rfl⟩ : ∃ (p : Fin 8) (q : Fin 512) (e : Fin 64), j = ix3 p q e := ⟨j 0, j 1, j 2, eq_ix3 j⟩
  show k0_pay12 (k0_pay5 (iblk m c 0 t)) (k0_pay6 (iblk m c 0 t) (iblk m c 1 t)) (iblk m c 2 t) (iblk m c 3 t) (iblk m c 4 t) (iblk m c 5 t) (ix3 p q e)
      = Cooccur.srcFeat (V m c main_arg0) (V m c main_arg1) (V m c main_arg2) (m ((c : Thread nD τ).loc main_arg3))
          (V m c main_arg4) (m ((c : Thread nD τ).loc main_arg5)) (((cfg0.win 6).blk t).view.emb (ix3 p q e))
  refine (srcBlock_apply (iblk m c 0 t) (iblk m c 1 t) (iblk m c 2 t) (iblk m c 3 t) (iblk m c 4 t) (iblk m c 5 t) p q e).trans ?_
  unfold Cooccur.srcFeat
  have hsrc : (fun j : Fin 512 => iblk m c 0 t (ix2 p j))
      = Cooccur.row (V m c main_arg0) ((((cfg0.win 6).blk t).view.emb (ix3 p q e)) 0) := funext fun j => by
    show V m c main_arg0 (((cfg0.win 0).blk t).view.emb (ix2 p j)) = V m c main_arg0 (ix2 ((((cfg0.win 6).blk t).view.emb (ix3 p q e)) 0) j)
    refine congrArg (V m c main_arg0) (funext fun a => Fin.ext ?_)
    match a with
    | ⟨0, _⟩ => show win0_0.index t (0 : Fin 2) * 8 + 1 * p.val = win0_6.index t (0 : Fin 3) * 8 + 1 * p.val; omega
    | ⟨1, _⟩ => show win0_0.index t (1 : Fin 2) * 512 + 1 * j.val = j.val; omega
  have hdst : (fun j : Fin 512 => iblk m c 1 t (ix2 p j))
      = Cooccur.row (V m c main_arg1) ((((cfg0.win 6).blk t).view.emb (ix3 p q e)) 0) := funext fun j => by
    show V m c main_arg1 (((cfg0.win 1).blk t).view.emb (ix2 p j)) = V m c main_arg1 (ix2 ((((cfg0.win 6).blk t).view.emb (ix3 p q e)) 0) j)
    refine congrArg (V m c main_arg1) (funext fun a => Fin.ext ?_)
    match a with
    | ⟨0, _⟩ => show win0_1.index t (0 : Fin 2) * 8 + 1 * p.val = win0_6.index t (0 : Fin 3) * 8 + 1 * p.val; omega
    | ⟨1, _⟩ => show win0_1.index t (1 : Fin 2) * 512 + 1 * j.val = j.val; omega
  have hw1 : (fun d : Fin 64 => iblk m c 2 t (ix2 d (0 : Fin 1))) = fun d : Fin 64 => V m c main_arg2 (ix2 d (0 : Fin 1)) := funext fun d => by
    show V m c main_arg2 (((cfg0.win 2).blk t).view.emb (ix2 d (0 : Fin 1))) = V m c main_arg2 (ix2 d (0 : Fin 1))
    refine congrArg (V m c main_arg2) (funext fun a => Fin.ext ?_)
    match a with
    | ⟨0, _⟩ => show win0_2.index t (0 : Fin 2) * 64 + 1 * d.val = d.val; omega
    | ⟨1, _⟩ => show win0_2.index t (1 : Fin 2) * 1 + 1 * 0 = 0; omega
  have hb1 : (fun d : Fin 64 => iblk m c 3 t (ix2 (0 : Fin 1) d)) = fun d : Fin 64 => m ((c : Thread nD τ).loc main_arg3) (ix1 d) := funext fun d => by
    show V m c main_v0 (((cfg0.win 3).blk t).view.emb (ix2 (0 : Fin 1) d)) = _
    rw [bias1_row m c d]
    refine congrArg (V m c main_v0) (funext fun a => Fin.ext ?_)
    match a with
    | ⟨0, _⟩ => show win0_3.index t (0 : Fin 2) * 1 + 1 * 0 = 0; omega
    | ⟨1, _⟩ => show win0_3.index t (1 : Fin 2) * 64 + 1 * d.val = d.val; omega
  have hW2 : (fun (e' d : Fin 64) => iblk m c 4 t (ix2 e' d)) = fun (e' d : Fin 64) => V m c main_arg4 (ix2 e' d) := funext fun e' => funext fun d => by
    show V m c main_arg4 (((cfg0.win 4).blk t).view.emb (ix2 e' d)) = V m c main_arg4 (ix2 e' d)
    refine congrArg (V m c main_arg4) (funext fun a => Fin.ext ?_)
    match a with
    | ⟨0, _⟩ => show win0_4.index t (0 : Fin 2) * 64 + 1 * e'.val = e'.val; omega
    | ⟨1, _⟩ => show win0_4.index t (1 : Fin 2) * 64 + 1 * d.val = d.val; omega
  have hb2 : (fun e' : Fin 64 => iblk m c 5 t (ix2 (0 : Fin 1) e')) = fun e' : Fin 64 => m ((c : Thread nD τ).loc main_arg5) (ix1 e') := funext fun e' => by
    show V m c main_v1 (((cfg0.win 5).blk t).view.emb (ix2 (0 : Fin 1) e')) = _
    rw [bias2_row m c e']
    refine congrArg (V m c main_v1) (funext fun a => Fin.ext ?_)
    match a with
    | ⟨0, _⟩ => show win0_5.index t (0 : Fin 2) * 1 + 1 * 0 = 0; omega
    | ⟨1, _⟩ => show win0_5.index t (1 : Fin 2) * 64 + 1 * e'.val = e'.val; omega
  have hq : (((cfg0.win 6).blk t).view.emb (ix3 p q e)) 1 = q := Fin.ext (by
    show win0_6.index t (1 : Fin 3) * 512 + 1 * q.val = q.val; omega)
  have he : (((cfg0.win 6).blk t).view.emb (ix3 p q e)) 2 = e := Fin.ext (by
    show win0_6.index t (2 : Fin 3) * 64 + 1 * e.val = e.val; omega)
  rw [hsrc, hdst, hw1, hb1, hW2, hb2, hq, he]

/-- An index of the array is in point `t`'s block iff each coordinate is in the block's range on its axis. -/
theorem mem_blk6 (t : Fin cfg0.N) (i : S256x512x64.Idx) :
    i ∈ ((cfg0.win 6).blk t).view.set ↔ ∀ a : Fin 3, win0_6.index t a * S8x512x64.size a ≤ (i a).val ∧ (i a).val < win0_6.index t a * S8x512x64.size a + S8x512x64.size a := by
  show i ∈ ((View.whole main_v2_0).slice (win0_6.rect t)).set ↔ _
  rw [View.set_slice_whole, Rect.mem_set_unit]
  exact Iff.rfl

/-- The blocks tile the result: entry (r, l, e) is in the block of the point whose block index is r / 8. -/
theorem cover6 (i : S256x512x64.Idx) :
    ∃ t : Fin cfg0.N, (cfg0.win 6).flush t = true ∧ i ∈ ((cfg0.win 6).blk t).view.set := by
  have hi0 : (i 0).val < 256 := (i 0).isLt
  have hi1 : (i 1).val < 512 := (i 1).isLt
  have hi2 : (i 2).val < 64 := (i 2).isLt
  obtain ⟨t, ht⟩ := idx_onto6 ⟨(i 0).val / 8, by omega⟩
  have q0 : win0_6.index t (0 : Fin 3) = (i 0).val / 8 := congrFun ht 0
  have q1 : win0_6.index t (1 : Fin 3) = 0 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 512 ≤ (i 1).val ∧ (i 1).val < win0_6.index t (1 : Fin 3) * 512 + 512; omega
  | ⟨2, _⟩ => show win0_6.index t (2 : Fin 3) * 64 ≤ (i 2).val ∧ (i 2).val < win0_6.index t (2 : Fin 3) * 64 + 64; omega

/-- THE ARRAY after the run, as one function of the argument arrays. -/
theorem final6 (c : Dev nD) :
    (dats m 0 c).arrAt 6 cfg0.N
      = Cooccur.srcFeat (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [(dats m 0 c).arrAt_eq_of_cover 6 _ (fun t _ => flushed6_eq m c t) cover6]
  rw [V_main_arg0, V_main_arg1, V_main_arg2, V_main_arg4]

/-! ## Output window 7 -/

/-- Every block of the result is some grid point's. -/
theorem idx_onto7 : ∀ q0 : Fin 32, ∃ t : Fin cfg0.N, win0_7.index t = ![q0.val, 0, 0] :=
  (by decide +kernel : ∀ q0 : Fin 32, ∃ t : Fin grid0.N, win0_7.index t = ![q0.val, 0, 0])

/-- WHAT POINT `t` WRITES BACK is block `t` of the result array: at row p, position q, entry e of the block the stored
    value is the feature of the blocks' rows p, and row p of an input block at point `t` is the array's row 8·(block
    index) + p, the row the output block's (p, q, e) lands on; the weights' blocks are the whole weight arrays. -/
theorem flushed7_eq (c : Dev nD) (t : Fin cfg0.N) :
    (dats m 0 c).flushed 7 t = ((cfg0.win 7).blk t).view.read (Elt Ideal)
      (Cooccur.dstFeat (V m c main_arg0) (V m c main_arg1) (V m c main_arg2) (m ((c : Thread nD τ).loc main_arg3))
        (V m c main_arg4) (m ((c : Thread nD τ).loc main_arg5))) := by
  rw [Value.flushed7]
  unfold out0_7
  rw [View.canon_unit_zero hz3]
  simp only [View.ld_unit_zero (S := S8x512) hz2, View.ld_unit_zero (S := S64x1) hz2, View.ld_unit_zero (S := S1x64) hz2,
    View.ld_unit_zero (S := S64x64) hz2]
  obtain ⟨a00, a01, a10, a11, a20, a21, a30, a31, a40, a41, a50, a51, a61, a62, a70, a71, a72⟩ := idx_facts t
  funext j
  obtain ⟨p, q, e, rfl⟩ : ∃ (p : Fin 8) (q : Fin 512) (e : Fin 64), j = ix3 p q e := ⟨j 0, j 1, j 2, eq_ix3 j⟩
  show k0_pay1 (k0_pay7 (iblk m c 0 t) (iblk m c 1 t)) (k0_pay9 (k0_pay2 (iblk m c 1 t)) (k0_pay4 (iblk m c 1 t)) (k0_pay8 (F := Ideal))) (iblk m c 2 t) (k0_pay10 (iblk m c 3 t)) (iblk m c 4 t) (k0_pay11 (iblk m c 5 t)) (ix3 p q e)
      = Cooccur.dstFeat (V m c main_arg0) (V m c main_arg1) (V m c main_arg2) (m ((c : Thread nD τ).loc main_arg3))
          (V m c main_arg4) (m ((c : Thread nD τ).loc main_arg5)) (((cfg0.win 7).blk t).view.emb (ix3 p q e))
  refine (dstBlock_apply (iblk m c 0 t) (iblk m c 1 t) (iblk m c 2 t) (iblk m c 3 t) (iblk m c 4 t) (iblk m c 5 t) p q e).trans ?_
  unfold Cooccur.dstFeat
  have hsrc : (fun j : Fin 512 => iblk m c 0 t (ix2 p j))
      = Cooccur.row (V m c main_arg0) ((((cfg0.win 7).blk t).view.emb (ix3 p q e)) 0) := funext fun j => by
    show V m c main_arg0 (((cfg0.win 0).blk t).view.emb (ix2 p j)) = V m c main_arg0 (ix2 ((((cfg0.win 7).blk t).view.emb (ix3 p q e)) 0) j)
    refine congrArg (V m c main_arg0) (funext fun a => Fin.ext ?_)
    match a with
    | ⟨0, _⟩ => show win0_0.index t (0 : Fin 2) * 8 + 1 * p.val = win0_7.index t (0 : Fin 3) * 8 + 1 * p.val; omega
    | ⟨1, _⟩ => show win0_0.index t (1 : Fin 2) * 512 + 1 * j.val = j.val; omega
  have hdst : (fun j : Fin 512 => iblk m c 1 t (ix2 p j))
      = Cooccur.row (V m c main_arg1) ((((cfg0.win 7).blk t).view.emb (ix3 p q e)) 0) := funext fun j => by
    show V m c main_arg1 (((cfg0.win 1).blk t).view.emb (ix2 p j)) = V m c main_arg1 (ix2 ((((cfg0.win 7).blk t).view.emb (ix3 p q e)) 0) j)
    refine congrArg (V m c main_arg1) (funext fun a => Fin.ext ?_)
    match a with
    | ⟨0, _⟩ => show win0_1.index t (0 : Fin 2) * 8 + 1 * p.val = win0_7.index t (0 : Fin 3) * 8 + 1 * p.val; omega
    | ⟨1, _⟩ => show win0_1.index t (1 : Fin 2) * 512 + 1 * j.val = j.val; omega
  have hw1 : (fun d : Fin 64 => iblk m c 2 t (ix2 d (0 : Fin 1))) = fun d : Fin 64 => V m c main_arg2 (ix2 d (0 : Fin 1)) := funext fun d => by
    show V m c main_arg2 (((cfg0.win 2).blk t).view.emb (ix2 d (0 : Fin 1))) = V m c main_arg2 (ix2 d (0 : Fin 1))
    refine congrArg (V m c main_arg2) (funext fun a => Fin.ext ?_)
    match a with
    | ⟨0, _⟩ => show win0_2.index t (0 : Fin 2) * 64 + 1 * d.val = d.val; omega
    | ⟨1, _⟩ => show win0_2.index t (1 : Fin 2) * 1 + 1 * 0 = 0; omega
  have hb1 : (fun d : Fin 64 => iblk m c 3 t (ix2 (0 : Fin 1) d)) = fun d : Fin 64 => m ((c : Thread nD τ).loc main_arg3) (ix1 d) := funext fun d => by
    show V m c main_v0 (((cfg0.win 3).blk t).view.emb (ix2 (0 : Fin 1) d)) = _
    rw [bias1_row m c d]
    refine congrArg (V m c main_v0) (funext fun a => Fin.ext ?_)
    match a with
    | ⟨0, _⟩ => show win0_3.index t (0 : Fin 2) * 1 + 1 * 0 = 0; omega
    | ⟨1, _⟩ => show win0_3.index t (1 : Fin 2) * 64 + 1 * d.val = d.val; omega
  have hW2 : (fun (e' d : Fin 64) => iblk m c 4 t (ix2 e' d)) = fun (e' d : Fin 64) => V m c main_arg4 (ix2 e' d) := funext fun e' => funext fun d => by
    show V m c main_arg4 (((cfg0.win 4).blk t).view.emb (ix2 e' d)) = V m c main_arg4 (ix2 e' d)
    refine congrArg (V m c main_arg4) (funext fun a => Fin.ext ?_)
    match a with
    | ⟨0, _⟩ => show win0_4.index t (0 : Fin 2) * 64 + 1 * e'.val = e'.val; omega
    | ⟨1, _⟩ => show win0_4.index t (1 : Fin 2) * 64 + 1 * d.val = d.val; omega
  have hb2 : (fun e' : Fin 64 => iblk m c 5 t (ix2 (0 : Fin 1) e')) = fun e' : Fin 64 => m ((c : Thread nD τ).loc main_arg5) (ix1 e') := funext fun e' => by
    show V m c main_v1 (((cfg0.win 5).blk t).view.emb (ix2 (0 : Fin 1) e')) = _
    rw [bias2_row m c e']
    refine congrArg (V m c main_v1) (funext fun a => Fin.ext ?_)
    match a with
    | ⟨0, _⟩ => show win0_5.index t (0 : Fin 2) * 1 + 1 * 0 = 0; omega
    | ⟨1, _⟩ => show win0_5.index t (1 : Fin 2) * 64 + 1 * e'.val = e'.val; omega
  have hq : (((cfg0.win 7).blk t).view.emb (ix3 p q e)) 1 = q := Fin.ext (by
    show win0_7.index t (1 : Fin 3) * 512 + 1 * q.val = q.val; omega)
  have he : (((cfg0.win 7).blk t).view.emb (ix3 p q e)) 2 = e := Fin.ext (by
    show win0_7.index t (2 : Fin 3) * 64 + 1 * e.val = e.val; omega)
  rw [hsrc, hdst, hw1, hb1, hW2, hb2, hq, he]

/-- An index of the array is in point `t`'s block iff each coordinate is in the block's range on its axis. -/
theorem mem_blk7 (t : Fin cfg0.N) (i : S256x512x64.Idx) :
    i ∈ ((cfg0.win 7).blk t).view.set ↔ ∀ a : Fin 3, win0_7.index t a * S8x512x64.size a ≤ (i a).val ∧ (i a).val < win0_7.index t a * S8x512x64.size a + S8x512x64.size a := by
  show i ∈ ((View.whole main_v2_1).slice (win0_7.rect t)).set ↔ _
  rw [View.set_slice_whole, Rect.mem_set_unit]
  exact Iff.rfl

/-- The blocks tile the result: entry (r, l, e) is in the block of the point whose block index is r / 8. -/
theorem cover7 (i : S256x512x64.Idx) :
    ∃ t : Fin cfg0.N, (cfg0.win 7).flush t = true ∧ i ∈ ((cfg0.win 7).blk t).view.set := by
  have hi0 : (i 0).val < 256 := (i 0).isLt
  have hi1 : (i 1).val < 512 := (i 1).isLt
  have hi2 : (i 2).val < 64 := (i 2).isLt
  obtain ⟨t, ht⟩ := idx_onto7 ⟨(i 0).val / 8, by omega⟩
  have q0 : win0_7.index t (0 : Fin 3) = (i 0).val / 8 := congrFun ht 0
  have q1 : win0_7.index t (1 : Fin 3) = 0 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 8 ≤ (i 0).val ∧ (i 0).val < win0_7.index t (0 : Fin 3) * 8 + 8; omega
  | ⟨1, _⟩ => show win0_7.index t (1 : Fin 3) * 512 ≤ (i 1).val ∧ (i 1).val < win0_7.index t (1 : Fin 3) * 512 + 512; omega
  | ⟨2, _⟩ => show win0_7.index t (2 : Fin 3) * 64 ≤ (i 2).val ∧ (i 2).val < win0_7.index t (2 : Fin 3) * 64 + 64; omega

/-- THE ARRAY after the run, as one function of the argument arrays. -/
theorem final7 (c : Dev nD) :
    (dats m 0 c).arrAt 7 cfg0.N
      = Cooccur.dstFeat (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [(dats m 0 c).arrAt_eq_of_cover 7 _ (fun t _ => flushed7_eq m c t) cover7]
  rw [V_main_arg0, V_main_arg1, V_main_arg2, V_main_arg4]

/-! ## The run, read -/

/-- Every weakly fair execution of the idealized kernel program ends with the two results at `srcFeat` and `dstFeat` of
    the arguments, and the arguments unchanged. -/
theorem run : θ_run defs (onTc (τ := τ) (main (F := Ideal))) ⟨m, fun _ => 0, ρ⟩ fun r => ∀ c : Dev nD,
      r.2.mem ((c : Thread nD τ).loc main_v2_0)
        = Cooccur.srcFeat (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_v2_1)
        = Cooccur.dstFeat (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.Whole

end
-- ==== Proof.LibCountSum.lean ====
/-
  A COUNT OF SET BITS, TAKEN TWO WAYS.

  A family of one-bit conditions along one axis of an array can be counted by widening every bit to a 32-bit word,
  adding the words and converting the sum to a float, or by converting every widened bit to a float and adding the
  floats. Over the extended reals the two agree whenever the axis is shorter than 2³¹: every widened bit is the
  word 0 or 1, so the word sum cannot wrap and is the number of set bits, read the same signed and unsigned; and a
  widened bit read signed is the bit itself.
-/
import Idealize.ShloMosaic.Lib.StableHlo.Predicate
import Idealize.ShloMosaic.Lib.KernelVsHost
import Idealize.ShloMosaic.PureOps.Ideal.Laws
import Idealize.ShloMosaic.PureOps.Reduce

namespace Cert.LibCountSum

open Idealize.ShloMosaic

/-- The embedding of the reals into the extended reals carries a finite sum to the sum of the embeddings. -/
theorem coe_finset_sum {ι : Type} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- A bit widened to a word is at most one. -/
theorem toNat_setWidth_bit_le_one (b : BitVec 1) : (b.setWidth 32).toNat ≤ 1 := by
  rw [StableHlo.Predicate.toNat_setWidth_bit]; split <;> omega

/-- A widened bit converted to a float, at the ideal values, is the bit's value as a real number. -/
theorem sitofp_setWidth_bit (b : BitVec 1) :
    FloatOps.sitofp (F := Ideal) .f32 (b.setWidth 32) = (((b.setWidth 32).toNat : ℝ) : EReal) := by
  show ((((b.setWidth 32).toInt : ℤ) : ℝ) : EReal) = _
  rw [StableHlo.Predicate.toInt_eq_toNat_of_lt (lt_of_le_of_lt (toNat_setWidth_bit_le_one b) (by norm_num))]
  norm_cast

/-- THE COUNT, TWO WAYS: the host's integer sum over one axis of the widened bits, converted to a float, is the sum
    over that axis's coordinates of the widened bits each converted to a float. The axis is shorter than 2³¹ and the
    sum starts from the word zero. -/
theorem sitofp_reduce_addi_extui {s t u : Shape} {a : Fin s.rank} (b : IVec s 1) (hw : 1 < 32)
    (init : u.Idx → BitVec 32) (h' : s.ReducesTo [a] t) (h : s.Reduces [a] t) (hu : 0 < u.numel)
    (h0 : init (Shape.Idx.first hu) = 0#32) (hsz : s.size a < 2 ^ 31) (j : t.Idx) :
    FloatOps.sitofp (F := Ideal) .f32 (Host.reduce IntOp.addi (extui 32 b hw) init h' hu j)
      = ∑ k : Fin (s.size a), FloatOps.sitofp (F := Ideal) .f32 ((b (h.lift j k)).setWidth 32) := by
  classical
  rw [Host.reduce_eq_fold_single IntOp.addi (extui 32 b hw) init h' h hu j, h0]
  have hterm : ∀ k : Fin (s.size a), ((extui 32 b hw ∘ h.lift j) k).toNat ≤ 1 := fun k =>
    toNat_setWidth_bit_le_one (b (h.lift j k))
  have hle : ∑ k : Fin (s.size a), ((extui 32 b hw ∘ h.lift j) k).toNat ≤ s.size a := by
    refine (Finset.sum_le_sum fun k _ => hterm k).trans ?_
    simp
  have hnat := StableHlo.Predicate.toNat_fold_addi (Finset.univ : Finset (Fin (s.size a))) (extui 32 b hw ∘ h.lift j)
    (lt_of_le_of_lt hle (lt_trans hsz (by norm_num)))
  show ((((Finset.fold IntOp.addi 0#32 (extui 32 b hw ∘ h.lift j) Finset.univ).toInt : ℤ) : ℝ) : EReal) = _
  rw [StableHlo.Predicate.toInt_eq_toNat_of_lt (by rw [hnat]; exact lt_of_le_of_lt hle hsz), hnat]
  simp only [sitofp_setWidth_bit]
  rw [← coe_finset_sum]
  norm_cast

end Cert.LibCountSum
-- ==== Proof.RefCounts.lean ====
/-
  THE REFERENCE'S COUNTS, READ AT ONE POSITION.

  The reference lays the whole 256 × 512 array `a` along a new last axis and `b` along a new middle axis, compares them,
  widens the equality bits to words, ADDS THE WORDS along the last axis as 32-bit integers, and only then converts the sum
  to a float. At most 512 ones are added, so the integer sum cannot wrap, and converted it is the sum of the converted
  bits: the specification's count of row r of `a` against row r of `b`. Two such counts are laid side by side on a new
  last axis of extent 2, converted, and replaced by the float zero where the identifier is zero.
-/
import proofs.«115043_j73701638799824_1_alg».proof.Proof.RefRead
import proofs.«115043_j73701638799824_1_alg».proof.Proof.LibCountSum
import proofs.«115043_j73701638799824_1_alg».proof.Proof.CooccurArrays
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.ReadP Idealize.ShloMosaic Idealize.ShloMosaic.ValueIdx

/-! ## Values moved, not changed -/

section Moves
variable {α : Type}

/-- An array given a last axis of extent one reads its entry at (r, l). -/
theorem unitLast_apply (a : S256x512.Idx → α) (r : Fin 256) (l : Fin 512) :
    broadcastInDim S256x512x1 ![0, 1] bcast_S256x512_S256x512x1_0_1 a (ix3 r l (0 : Fin 1)) = a (ix2 r l) :=
  broadcastInDim_apply _ bcast_S256x512_S256x512x1_0_1 a (ix3 r l (0 : Fin 1)) (ix2 r l) (fun c => match c with
    | ⟨0, _⟩ => by show r.val = if (256 : Nat) = 1 then 0 else r.val; rw [if_neg (by decide)]
    | ⟨1, _⟩ => by show l.val = if (512 : Nat) = 1 then 0 else l.val; rw [if_neg (by decide)])

/-- An array laid along a new last axis and repeated 512 times reads its entry at (r, l). -/
theorem lastAxis_apply (a : S256x512.Idx → α) (r : Fin 256) (l k : Fin 512) :
    broadcastInDim S256x512x512 ![0, 1, 2] bcast_S256x512x1_S256x512x512_0_1_2
        (broadcastInDim S256x512x1 ![0, 1] bcast_S256x512_S256x512x1_0_1 a) (ix3 r l k)
      = a (ix2 r l) := by
  refine (broadcastInDim_apply _ bcast_S256x512x1_S256x512x512_0_1_2 _ (ix3 r l k) (ix3 r l (0 : Fin 1)) (fun c => match c with
    | ⟨0, _⟩ => by show r.val = if (256 : Nat) = 1 then 0 else r.val; rw [if_neg (by decide)]
    | ⟨1, _⟩ => by show l.val = if (512 : Nat) = 1 then 0 else l.val; rw [if_neg (by decide)]
    | ⟨2, _⟩ => by show (0 : Nat) = if (1 : Nat) = 1 then 0 else k.val; rw [if_pos rfl])).trans ?_
  exact unitLast_apply a r l

/-- An array laid along a new middle axis and repeated 512 times reads its entry at (r, k). -/
theorem midAxis_apply (b : S256x512.Idx → α) (r : Fin 256) (l k : Fin 512) :
    broadcastInDim S256x512x512 ![0, 1, 2] bcast_S256x1x512_S256x512x512_0_1_2
        (broadcastInDim S256x1x512 ![0, 2] bcast_S256x512_S256x1x512_0_2 b) (ix3 r l k)
      = b (ix2 r k) := by
  refine (broadcastInDim_apply _ bcast_S256x1x512_S256x512x512_0_1_2 _ (ix3 r l k) (ix3 r (0 : Fin 1) k) (fun c => match c with
    | ⟨0, _⟩ => by show r.val = if (256 : Nat) = 1 then 0 else r.val; rw [if_neg (by decide)]
    | ⟨1, _⟩ => by show (0 : Nat) = if (1 : Nat) = 1 then 0 else l.val; rw [if_pos rfl]
    | ⟨2, _⟩ => by show k.val = if (512 : Nat) = 1 then 0 else k.val; rw [if_neg (by decide)])).trans ?_
  exact broadcastInDim_apply _ bcast_S256x512_S256x1x512_0_2 b (ix3 r (0 : Fin 1) k) (ix2 r k) (fun c => match c with
    | ⟨0, _⟩ => by show r.val = if (256 : Nat) = 1 then 0 else r.val; rw [if_neg (by decide)]
    | ⟨1, _⟩ => by show k.val = if (512 : Nat) = 1 then 0 else k.val; rw [if_neg (by decide)])

/-- A condition on (r, l) given a last axis of extent one and repeated twice reads the condition at (r, l). -/
theorem pairAxis_apply (c : S256x512.Idx → α) (r : Fin 256) (l : Fin 512) (k : Fin 2) :
    broadcastInDim S256x512x2 ![0, 1, 2] bcast_S256x512x1_S256x512x2_0_1_2
        (broadcastInDim S256x512x1 ![0, 1] bcast_S256x512_S256x512x1_0_1 c) (ix3 r l k)
      = c (ix2 r l) := by
  refine (broadcastInDim_apply _ bcast_S256x512x1_S256x512x2_0_1_2 _ (ix3 r l k) (ix3 r l (0 : Fin 1)) (fun c => match c with
    | ⟨0, _⟩ => by show r.val = if (256 : Nat) = 1 then 0 else r.val; rw [if_neg (by decide)]
    | ⟨1, _⟩ => by show l.val = if (512 : Nat) = 1 then 0 else l.val; rw [if_neg (by decide)]
    | ⟨2, _⟩ => by show (0 : Nat) = if (1 : Nat) = 1 then 0 else k.val; rw [if_pos rfl])).trans ?_
  exact unitLast_apply c r l

/-- Two arrays with a last axis of extent one, laid side by side on that axis: coordinate 0 reads the first. -/
theorem sideBySide_apply_zero (u v : S256x512x1.Idx → α) (r : Fin 256) (l : Fin 512) :
    concatenate S256x512x2 2 [⟨S256x512x1, u⟩, ⟨S256x512x1, v⟩] concatenates_S256x512x1_S256x512x1_S256x512x2_d2 (ix3 r l (0 : Fin 2))
      = u (ix3 r l (0 : Fin 1)) :=
  concatenate_pair_apply_left (t := S256x512x2) (s₁ := S256x512x1) (s₂ := S256x512x1) (2 : Fin 3) u v
    concatenates_S256x512x1_S256x512x1_S256x512x2_d2 (ix3 r l (0 : Fin 2)) rfl (ix3 r l (0 : Fin 1)) (fun b => match b with
    | ⟨0, _⟩ => rfl
    | ⟨1, _⟩ => rfl
    | ⟨2, _⟩ => rfl)

/-- Coordinate 1 reads the second. -/
theorem sideBySide_apply_one (u v : S256x512x1.Idx → α) (r : Fin 256) (l : Fin 512) :
    concatenate S256x512x2 2 [⟨S256x512x1, u⟩, ⟨S256x512x1, v⟩] concatenates_S256x512x1_S256x512x1_S256x512x2_d2 (ix3 r l (1 : Fin 2))
      = v (ix3 r l (0 : Fin 1)) :=
  concatenate_pair_apply_right (t := S256x512x2) (s₁ := S256x512x1) (s₂ := S256x512x1) (2 : Fin 3) u v
    concatenates_S256x512x1_S256x512x1_S256x512x2_d2 (ix3 r l (1 : Fin 2)) rfl rfl (ix3 r l (0 : Fin 1)) (fun b hb => match b with
    | ⟨0, _⟩ => rfl
    | ⟨1, _⟩ => rfl
    | ⟨2, _⟩ => absurd rfl hb) rfl

end Moves

/-! ## The integer count -/

/-- The reference's count of `a` against `b`, as a 32-bit integer per position. -/
def hostCount (a b : IVec S256x512 32) : IVec S256x512 32 :=
  Host.reduce IntOp.addi
    (extui 32
      (cmpi .eq
        (broadcastInDim S256x512x512 ![0, 1, 2] bcast_S256x512x1_S256x512x512_0_1_2 (broadcastInDim S256x512x1 ![0, 1] bcast_S256x512_S256x512x1_0_1 a))
        (broadcastInDim S256x512x512 ![0, 1, 2] bcast_S256x1x512_S256x512x512_0_1_2 (broadcastInDim S256x1x512 ![0, 2] bcast_S256x512_S256x1x512_0_2 b)))
      natLt_1_32)
    (constantI S_ 32 0#32) reducesTo_S256x512x512_S256x512_d2 h_S_

/-- src against src. -/
theorem v6_eq (x0 : IVec S256x512 32) : val_main_v6 (F := Ideal) x0 = hostCount x0 x0 := rfl
/-- src against dst. -/
theorem v13_eq (x0 x1 : IVec S256x512 32) : val_main_v13 (F := Ideal) x0 x1 = hostCount x0 x1 := rfl
/-- dst against src. -/
theorem v20_eq (x0 x1 : IVec S256x512 32) : val_main_v20 (F := Ideal) x0 x1 = hostCount x1 x0 := rfl
/-- dst against dst. -/
theorem v27_eq (x1 : IVec S256x512 32) : val_main_v27 (F := Ideal) x1 = hostCount x1 x1 := rfl

/-- The integer count at (r, l), converted, is the specification's count of row r of `a` against row r of `b`: the sum
    of at most 512 ones does not wrap. -/
theorem hostCount_apply (a b : IVec S256x512 32) (r : Fin 256) (l : Fin 512) :
    FloatOps.sitofp (F := Ideal) .f32 (hostCount a b (ix2 r l)) = Cooccur.count (Cooccur.row a r) (Cooccur.row b r) l := by
  have hred : S256x512x512.Reduces [2] S256x512 := by decide
  unfold hostCount Cooccur.count
  refine (LibCountSum.sitofp_reduce_addi_extui _ natLt_1_32 _ reducesTo_S256x512x512_S256x512_d2 hred h_S_ rfl (by decide) (ix2 r l)).trans ?_
  refine Finset.sum_congr rfl fun k _ => ?_
  have hl : hred.lift (ix2 r l) k = ix3 r l (⟨k.val, k.isLt⟩ : Fin 512) :=
    funext fun c => Fin.ext (by match c with | ⟨0, _⟩ => rfl | ⟨1, _⟩ => rfl | ⟨2, _⟩ => rfl)
  rw [hl]
  show FloatOps.sitofp (F := Ideal) .f32 ((IntOp.cmpi .eq
      (broadcastInDim S256x512x512 ![0, 1, 2] bcast_S256x512x1_S256x512x512_0_1_2 (broadcastInDim S256x512x1 ![0, 1] bcast_S256x512_S256x512x1_0_1 a) (ix3 r l (⟨k.val, k.isLt⟩ : Fin 512)))
      (broadcastInDim S256x512x512 ![0, 1, 2] bcast_S256x1x512_S256x512x512_0_1_2 (broadcastInDim S256x1x512 ![0, 2] bcast_S256x512_S256x1x512_0_2 b) (ix3 r l (⟨k.val, k.isLt⟩ : Fin 512)))).setWidth 32) = _
  rw [lastAxis_apply, midAxis_apply]
  rfl

/-! ## Two counts side by side, converted and masked -/

/-- The reference's pair of masked counts: where `z` is zero the float zero, elsewhere the converted counts of
    (a0, b0) at coordinate 0 and of (a1, b1) at coordinate 1 of the new last axis. -/
def hostApp (z a0 b0 a1 b1 : IVec S256x512 32) : FVec Ideal S256x512x2 .f32 :=
  select
    (broadcastInDim S256x512x2 ![0, 1, 2] bcast_S256x512x1_S256x512x2_0_1_2
      (broadcastInDim S256x512x1 ![0, 1] bcast_S256x512_S256x512x1_0_1
        (cmpi .eq z (broadcastInDim S256x512 ![] bcast_S_S256x512 (constantI S_ 32 0#32)))))
    (broadcastInDim S256x512x2 ![] bcast_S_S256x512x2 (id (constant (F := Ideal) S_ .f32 0x00000000#32)))
    (sitofp .f32 (concatenate S256x512x2 2
      [⟨S256x512x1, broadcastInDim S256x512x1 ![0, 1] bcast_S256x512_S256x512x1_0_1 (hostCount a0 b0)⟩,
       ⟨S256x512x1, broadcastInDim S256x512x1 ![0, 1] bcast_S256x512_S256x512x1_0_1 (hostCount a1 b1)⟩]
      concatenates_S256x512x1_S256x512x1_S256x512x2_d2))

/-- The src pair: masked by src, counts against src and against dst. -/
theorem v39_eq (x0 x1 : IVec S256x512 32) : val_main_v39 (F := Ideal) x0 x1 = hostApp x0 x0 x0 x0 x1 := rfl
/-- The dst pair: masked by dst, counts against src and against dst. -/
theorem v43_eq (x0 x1 : IVec S256x512 32) : val_main_v43 (F := Ideal) x0 x1 = hostApp x1 x1 x0 x1 x1 := rfl

/-- The zero the mask puts in, at any entry. -/
theorem zeroSplat_apply (i : S256x512x2.Idx) :
    broadcastInDim S256x512x2 ![] bcast_S_S256x512x2 (id (constant (F := Ideal) S_ .f32 0x00000000#32)) i = Cooccur.fzero :=
  broadcastInDim_apply _ bcast_S_S256x512x2 _ i (fun a => a.elim0) (fun a => a.elim0)

/-- The condition "the identifier is zero", at (r, l). -/
theorem isZero_apply (z : IVec S256x512 32) (r : Fin 256) (l : Fin 512) :
    cmpi .eq z (broadcastInDim S256x512 ![] bcast_S_S256x512 (constantI S_ 32 0#32)) (ix2 r l) = IntOp.cmpi .eq (z (ix2 r l)) 0#32 := by
  show IntOp.cmpi .eq (z (ix2 r l)) (broadcastInDim S256x512 ![] bcast_S_S256x512 (constantI S_ 32 0#32) (ix2 r l)) = _
  rw [broadcastInDim_apply _ bcast_S_S256x512 (constantI S_ 32 0#32) (ix2 r l) (fun a => a.elim0) (fun a => a.elim0)]
  rfl

/-- Coordinate 0 of the pair at (r, l). -/
theorem hostApp_apply_zero (z a0 b0 a1 b1 : IVec S256x512 32) (r : Fin 256) (l : Fin 512) :
    hostApp z a0 b0 a1 b1 (ix3 r l (0 : Fin 2))
      = Scalar.select (IntOp.cmpi .eq (z (ix2 r l)) 0#32) Cooccur.fzero (Cooccur.count (Cooccur.row a0 r) (Cooccur.row b0 r) l) := by
  unfold hostApp
  rw [select_apply, sitofp_apply, pairAxis_apply, zeroSplat_apply, sideBySide_apply_zero, unitLast_apply, isZero_apply, hostCount_apply]

/-- Coordinate 1 of the pair at (r, l). -/
theorem hostApp_apply_one (z a0 b0 a1 b1 : IVec S256x512 32) (r : Fin 256) (l : Fin 512) :
    hostApp z a0 b0 a1 b1 (ix3 r l (1 : Fin 2))
      = Scalar.select (IntOp.cmpi .eq (z (ix2 r l)) 0#32) Cooccur.fzero (Cooccur.count (Cooccur.row a1 r) (Cooccur.row b1 r) l) := by
  unfold hostApp
  rw [select_apply, sitofp_apply, pairAxis_apply, zeroSplat_apply, sideBySide_apply_one, unitLast_apply, isZero_apply, hostCount_apply]

end Cert.ReferenceIdeal.Hand

end
-- ==== Proof.RefValue.lean ====
/-
  THE REFERENCE'S TWO RESULTS ARE THE SPECIFICATION'S.

  From the pair of masked counts the reference lays the pair along a new last axis of 64 entries, multiplies by the weight
  column and adds the first bias, takes the positive part, contracts the last axis with the 64 × 64 matrix, adds the second
  bias, and finally sums the two members of the pair starting from the float zero. At entry (r, l, e) that is
      0 + (encoding of the first masked count + encoding of the second masked count),
  and adding the float zero changes nothing on the extended reals: the specification's feature.
-/
import proofs.«115043_j73701638799824_1_alg».proof.Proof.RefCounts
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx

/-- One of the two encodings the first result adds: at row r, position l, pair coordinate k and entry e, the stage
    before the final sum is the specification's encoding of the pair's entry (r, l, k). The stage lemmas read each
    operation at an index; the composed indices are the coordinates themselves. -/
theorem enc57_apply (x0 x1 : IVec S256x512 32) (x2 : FVec Ideal S64x1 .f32) (x3 : FVec Ideal S64 .f32)
    (x4 : FVec Ideal S64x64 .f32) (x5 : FVec Ideal S64 .f32) (r : Fin 256) (l : Fin 512) (k : Fin 2) (e : Fin 64) :
    val_main_v57 (F := Ideal) x0 x1 x2 x3 x4 x5 (ix4 r l k e)
      = Cooccur.encode (val_main_v39 (F := Ideal) x0 x1 (ix3 r l k)) (fun d => x2 (ix2 d (0 : Fin 1))) (fun d => x3 (ix1 d))
          (fun e' d => x4 (ix2 e' d)) (fun e' => x5 (ix1 e')) e := by
  rw [val_main_v57_apply, val_main_v54_apply, val_main_v56_apply, val_main_v55_apply]
  unfold Cooccur.encode
  rw [Ideal.addf_def]
  refine congr (congrArg HAdd.hAdd (Finset.sum_congr rfl fun d _ => ?_)) ?_
  · rw [val_main_v53_apply, val_main_v52_apply, val_main_v49_apply, val_main_v47_apply, val_main_v44_apply,
      val_main_v48_apply, val_main_v46_apply, val_main_v45_apply, val_main_v51_apply, val_main_v50_apply,
      val_main_call2_v0_apply, val_main_call2_cst_apply]
    have i1 : idx_main_v44 (idx_main_v47 (lidx_main_v54 (ix4 r l k e) d)) = ix3 r l k :=
      funext fun a => Fin.ext (by match a with | ⟨0, _⟩ => rfl | ⟨1, _⟩ => rfl | ⟨2, _⟩ => rfl)
    have i2 : idx_main_v45 (idx_main_v46 (idx_main_v48 (lidx_main_v54 (ix4 r l k e) d))) = ix2 d (0 : Fin 1) :=
      funext fun a => Fin.ext (by match a with | ⟨0, _⟩ => exact Nat.div_one _ | ⟨1, _⟩ => rfl)
    have i3 : idx_main_v50 (idx_main_v51 (lidx_main_v54 (ix4 r l k e) d)) = ix1 d :=
      funext fun a => Fin.ext (by match a with | ⟨0, _⟩ => rfl)
    have i4 : ridx_main_v54 (ix4 r l k e) d = ix2 e d :=
      funext fun a => Fin.ext (by match a with | ⟨0, _⟩ => rfl | ⟨1, _⟩ => rfl)
    rw [i1, i2, i3, i4]
    rfl
  · exact congrArg x5 (funext fun a => Fin.ext (by match a with | ⟨0, _⟩ => rfl))

/-- One of the two encodings the second result adds: at row r, position l, pair coordinate k and entry e, the stage
    before the final sum is the specification's encoding of the pair's entry (r, l, k). The stage lemmas read each
    operation at an index; the composed indices are the coordinates themselves. -/
theorem enc72_apply (x0 x1 : IVec S256x512 32) (x2 : FVec Ideal S64x1 .f32) (x3 : FVec Ideal S64 .f32)
    (x4 : FVec Ideal S64x64 .f32) (x5 : FVec Ideal S64 .f32) (r : Fin 256) (l : Fin 512) (k : Fin 2) (e : Fin 64) :
    val_main_v72 (F := Ideal) x0 x1 x2 x3 x4 x5 (ix4 r l k e)
      = Cooccur.encode (val_main_v43 (F := Ideal) x0 x1 (ix3 r l k)) (fun d => x2 (ix2 d (0 : Fin 1))) (fun d => x3 (ix1 d))
          (fun e' d => x4 (ix2 e' d)) (fun e' => x5 (ix1 e')) e := by
  rw [val_main_v72_apply, val_main_v69_apply, val_main_v71_apply, val_main_v70_apply]
  unfold Cooccur.encode
  rw [Ideal.addf_def]
  refine congr (congrArg HAdd.hAdd (Finset.sum_congr rfl fun d _ => ?_)) ?_
  · rw [val_main_v68_apply, val_main_v67_apply, val_main_v64_apply, val_main_v62_apply, val_main_v59_apply,
      val_main_v63_apply, val_main_v61_apply, val_main_v60_apply, val_main_v66_apply, val_main_v65_apply,
      val_main_call3_v0_apply, val_main_call3_cst_apply]
    have i1 : idx_main_v59 (idx_main_v62 (lidx_main_v69 (ix4 r l k e) d)) = ix3 r l k :=
      funext fun a => Fin.ext (by match a with | ⟨0, _⟩ => rfl | ⟨1, _⟩ => rfl | ⟨2, _⟩ => rfl)
    have i2 : idx_main_v60 (idx_main_v61 (idx_main_v63 (lidx_main_v69 (ix4 r l k e) d))) = ix2 d (0 : Fin 1) :=
      funext fun a => Fin.ext (by match a with | ⟨0, _⟩ => exact Nat.div_one _ | ⟨1, _⟩ => rfl)
    have i3 : idx_main_v65 (idx_main_v66 (lidx_main_v69 (ix4 r l k e) d)) = ix1 d :=
      funext fun a => Fin.ext (by match a with | ⟨0, _⟩ => rfl)
    have i4 : ridx_main_v69 (ix4 r l k e) d = ix2 e d :=
      funext fun a => Fin.ext (by match a with | ⟨0, _⟩ => rfl | ⟨1, _⟩ => rfl)
    rw [i1, i2, i3, i4]
    rfl
  · exact congrArg x5 (funext fun a => Fin.ext (by match a with | ⟨0, _⟩ => rfl))

/-- THE FIRST RESULT: src rows against src rows and dst rows. -/
theorem ref_src (x0 x1 : IVec S256x512 32) (x2 : FVec Ideal S64x1 .f32) (x3 : FVec Ideal S64 .f32)
    (x4 : FVec Ideal S64x64 .f32) (x5 : FVec Ideal S64 .f32) :
    val_main_v58 (F := Ideal) x0 x1 x2 x3 x4 x5 = Cooccur.srcFeat x0 x1 x2 x3 x4 x5 := by
  funext i
  obtain ⟨r, l, e, rfl⟩ : ∃ (r : Fin 256) (l : Fin 512) (e : Fin 64), i = ix3 r l e := ⟨i 0, i 1, i 2, eq_ix3 i⟩
  rw [val_main_v58_apply, Fin.sum_univ_two]
  have j0 : idx_main_v58 (ix3 r l e) 0 = ix4 r l (0 : Fin 2) e :=
    funext fun a => Fin.ext (by match a with | ⟨0, _⟩ => rfl | ⟨1, _⟩ => rfl | ⟨2, _⟩ => rfl | ⟨3, _⟩ => rfl)
  have j1 : idx_main_v58 (ix3 r l e) 1 = ix4 r l (1 : Fin 2) e :=
    funext fun a => Fin.ext (by match a with | ⟨0, _⟩ => rfl | ⟨1, _⟩ => rfl | ⟨2, _⟩ => rfl | ⟨3, _⟩ => rfl)
  rw [j0, j1, enc57_apply, enc57_apply, v39_eq, hostApp_apply_zero, hostApp_apply_one]
  show Ideal.ofBits .f32 0x00000000#32 + _ = _
  rw [Ideal.ofBits_zero_f32, zero_add]
  rfl

/-- THE SECOND RESULT: dst rows against src rows and dst rows. -/
theorem ref_dst (x0 x1 : IVec S256x512 32) (x2 : FVec Ideal S64x1 .f32) (x3 : FVec Ideal S64 .f32)
    (x4 : FVec Ideal S64x64 .f32) (x5 : FVec Ideal S64 .f32) :
    val_main_v73 (F := Ideal) x0 x1 x2 x3 x4 x5 = Cooccur.dstFeat x0 x1 x2 x3 x4 x5 := by
  funext i
  obtain ⟨r, l, e, rfl⟩ : ∃ (r : Fin 256) (l : Fin 512) (e : Fin 64), i = ix3 r l e := ⟨i 0, i 1, i 2, eq_ix3 i⟩
  rw [val_main_v73_apply, Fin.sum_univ_two]
  have j0 : idx_main_v73 (ix3 r l e) 0 = ix4 r l (0 : Fin 2) e :=
    funext fun a => Fin.ext (by match a with | ⟨0, _⟩ => rfl | ⟨1, _⟩ => rfl | ⟨2, _⟩ => rfl | ⟨3, _⟩ => rfl)
  have j1 : idx_main_v73 (ix3 r l e) 1 = ix4 r l (1 : Fin 2) e :=
    funext fun a => Fin.ext (by match a with | ⟨0, _⟩ => rfl | ⟨1, _⟩ => rfl | ⟨2, _⟩ => rfl | ⟨3, _⟩ => rfl)
  rw [j0, j1, enc72_apply, enc72_apply, v43_eq, hostApp_apply_zero, hostApp_apply_one]
  show Ideal.ofBits .f32 0x00000000#32 + _ = _
  rw [Ideal.ofBits_zero_f32, zero_add]
  rfl

end Cert.ReferenceIdeal.Hand

end
-- ==== Proof.lean ====
/-
  The kernel program and its jnp reference compute the same two feature arrays over the extended reals.

  Each of 256 rows holds 512 src identifiers and 512 dst identifiers. For every position the programs count how often
  its identifier occurs in the src row and in the dst row of the same index (the count is zero for the padding
  identifier 0), encode each count by a small two-layer network — a 1 → 64 linear layer, the positive part, a 64 → 64
  linear layer — and add the two encodings. The kernel does this 8 rows at a time, converting every equality bit to a
  float before it sums and multiplying flattened 4096 × 64 blocks by the transposed weight matrix; the reference sums the
  bits as integers, converts the sum, carries the two counts on an extra axis of extent 2 through one contraction and
  sums that axis at the end. The two agree entry by entry because an integer sum of at most 512 ones does not wrap
  (so converting after or before the sum gives the same real), because a product into a zero accumulator and a sum
  that starts from zero add nothing, and because addition of extended reals is associative; no finiteness of the
  weights is used. The common value is `Cooccur.srcFeat` / `Cooccur.dstFeat` (Proof/CooccurSpec.lean,
  Proof/CooccurArrays.lean).

  The kernel side: Proof/KernelCounts.lean and Proof/KernelEncode.lean read the stored values at one entry of a block,
  Proof/KernelBlock.lean joins them, Proof/KernelArray.lean goes from the 32 blocks to the whole arrays over the
  generated frame run. The reference side: Proof/RefCounts.lean reads the integer counts through the count lemma of
  Proof/LibCountSum.lean, Proof/RefValue.lean the encoder and the final sum, over the stage lemmas and the run of the
  reference. The three frames are the generated runs; the idealization rewrote nothing, so its claim is trivial.
-/
import proofs.«115043_j73701638799824_1_alg».proof.Defs
import proofs.«115043_j73701638799824_1_alg».proof.Proof.Gen.Kernel
import proofs.«115043_j73701638799824_1_alg».proof.Proof.Gen.Kernel.Skeleton
import proofs.«115043_j73701638799824_1_alg».proof.Proof.Gen.Kernel.Launch
import proofs.«115043_j73701638799824_1_alg».proof.Proof.Gen.Kernel.Points
import proofs.«115043_j73701638799824_1_alg».proof.Proof.Gen.Kernel.Frame
import proofs.«115043_j73701638799824_1_alg».proof.Proof.Gen.KernelIdeal
import proofs.«115043_j73701638799824_1_alg».proof.Proof.Gen.KernelIdeal.Skeleton
import proofs.«115043_j73701638799824_1_alg».proof.Proof.Gen.KernelIdeal.Launch
import proofs.«115043_j73701638799824_1_alg».proof.Proof.Gen.KernelIdeal.Points
import proofs.«115043_j73701638799824_1_alg».proof.Proof.Gen.KernelIdeal.Frame
import proofs.«115043_j73701638799824_1_alg».proof.Proof.Gen.KernelIdeal.Value
import proofs.«115043_j73701638799824_1_alg».proof.Proof.Gen.ReferenceIdeal
import proofs.«115043_j73701638799824_1_alg».proof.Proof.Gen.Pre_finite_inputs
import proofs.«115043_j73701638799824_1_alg».proof.Proof.RefRun
import proofs.«115043_j73701638799824_1_alg».proof.Proof.RefRead
import proofs.«115043_j73701638799824_1_alg».proof.Proof.KernelArray
import proofs.«115043_j73701638799824_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the arguments both programs end with the first result at `srcFeat` and the second at
    `dstFeat` of the arguments: the kernel by its blocks (Proof/KernelArray.lean), the reference by its stages
    (Proof/RefValue.lean). -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [(hagree c).1, (hagree c).2.1, (hagree c).2.2.1, (hagree c).2.2.2.1, (hagree c).2.2.2.2.1, (hagree c).2.2.2.2.2]
    exact (Cert.ReferenceIdeal.ReadP.val_main_v58_eq _ _ _ _ _ _).trans (Cert.ReferenceIdeal.Hand.ref_src _ _ _ _ _ _)
  · rw [(hagree c).1, (hagree c).2.1, (hagree c).2.2.1, (hagree c).2.2.2.1, (hagree c).2.2.2.2.1, (hagree c).2.2.2.2.2]
    exact (Cert.ReferenceIdeal.ReadP.val_main_v73_eq _ _ _ _ _ _).trans (Cert.ReferenceIdeal.Hand.ref_dst _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
